-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128 : Shape := ⟨2, ![64, 128]⟩
abbrev S65536x128 : Shape := ⟨2, ![65536, 128]⟩
abbrev S_ : Shape := ⟨0, ![]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S64x128 .f32) (main_arg1 : FVec F S65536x128 .f32) : IVec S_ 1 :=
  let main_v0 : FVec F S64x128 .f32 := Host.absf main_arg0
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  main_v8
-- ==== Kernel.lean ====
abbrev S64x128 : Shape := ⟨2, ![64, 128]⟩
abbrev S65536x128 : Shape := ⟨2, ![65536, 128]⟩
abbrev S8192x128 : Shape := ⟨2, ![8192, 128]⟩
abbrev S64x1 : Shape := ⟨2, ![64, 1]⟩
abbrev S512x128 : Shape := ⟨2, ![512, 128]⟩
abbrev S64x512 : Shape := ⟨2, ![64, 512]⟩
abbrev S64 : Shape := ⟨1, ![64]⟩

abbrev nBuf : Space → Nat
  | .hbm => 3
  | .vmem => 7
  | .smem => 0
  | _ => 0

abbrev bufTy : (tb : Table) → Fin (tcTables nBuf tb) → BufTy
  | .hbm, ⟨0, _⟩ => ⟨S64x128, .f32⟩
  | .hbm, ⟨1, _⟩ => ⟨S65536x128, .f32⟩
  | .hbm, ⟨2, _⟩ => ⟨S64x128, .f32⟩
  | .local _ .vmem, ⟨0, _⟩ => ⟨S64x128, .f32⟩
  | .local _ .vmem, ⟨1, _⟩ => ⟨S8192x128, .f32⟩
  | .local _ .vmem, ⟨2, _⟩ => ⟨S8192x128, .f32⟩
  | .local _ .vmem, ⟨3, _⟩ => ⟨S64x128, .f32⟩
  | .local _ .vmem, ⟨4, _⟩ => ⟨S64x128, .f32⟩
  | .local _ .vmem, ⟨5, _⟩ => ⟨S64x1, .f32⟩
  | .local _ .vmem, ⟨6, _⟩ => ⟨S64x1, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_8 : BitVec 32 := 0#32
  let c16_i32 : BitVec 32 := 16#32
  let v8 : BitVec 32 := Scalar.addi c0_i32_8 c16_i32
  let c1_i32 : BitVec 32 := 1#32
  ⟨c0_i32_8, v8, c1_i32⟩
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c512_i32 : BitVec 32 := 512#32
  let v22 : BitVec 32 := Scalar.muli arg7 c512_i32
  let v23 : Index := Scalar.indexCast v22
  let c0_17 : Index := 0#32
  ![v23.toNat, 0]
def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  bitsLt_bf16_f32 : FTy.bits .bf16 < FTy.bits .f32
  h_S512x128 : 0 < S512x128.numel
  reduces_S64x512_S64 : S64x512.Reduces [1] S64
  shapeCasts_S64_S64x1 : S64.ShapeCasts S64x1
  broadcasts_S64x1_S64x512 : S64x1.Broadcasts S64x512
  broadcasts_S64x1_S64x128 : S64x1.Broadcasts S64x128
  dot_S64x128_S512x128_S64x512_1_1_0_0_n_n_wf : DotDims.WF S64x128 S512x128 S64x512 [1] [1] [0] [0] [] []
  dot_S64x512_S512x128_S64x128_1_0_0_1_n_n_wf : DotDims.WF S64x512 S512x128 S64x128 [1] [0] [0] [1] [] []
  hrank0 : 0 < grid0.rank
  k0_t1_ok : k0_t1_loop.OK
  k0_off1_inb : ∀ k0_t1 : Fin k0_t1_loop.trips, ∀ a, (k0_off1 k0_t1) a + S512x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S65536x128.size a
  hwx0_1 : ∀ i : grid0.Coords, EltTy.bits .f32 = 32 ∨ (Rect.block (s := S65536x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)

variable [Facts₀]

def dot_S64x128_S512x128_S64x512_1_1_0_0_n_n : DotDims S64x128 S512x128 S64x512 where
  lhsContracting := [1]
  rhsContracting := [1]
  lhsNonContracting := [0]
  rhsNonContracting := [0]
  lhsBatch := []
  rhsBatch := []
  wf := dot_S64x128_S512x128_S64x512_1_1_0_0_n_n_wf
def dot_S64x512_S512x128_S64x128_1_0_0_1_n_n : DotDims S64x512 S512x128 S64x128 where
  lhsContracting := [1]
  rhsContracting := [0]
  lhsNonContracting := [0]
  rhsNonContracting := [1]
  lhsBatch := []
  rhsBatch := []
  wf := dot_S64x512_S512x128_S64x128_1_0_0_1_n_n_wf

abbrev win0_0 : Pipeline.Window sig grid0 :=
  Pipeline.Window.ofSpec (Memref.whole main_arg0) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x128 : Shape := ⟨2, ![64, 128]⟩
abbrev S65536x128 : Shape := ⟨2, ![65536, 128]⟩
abbrev S128x65536 : Shape := ⟨2, ![128, 65536]⟩
abbrev S64x65536 : Shape := ⟨2, ![64, 65536]⟩
abbrev S_ : Shape := ⟨0, ![]⟩
abbrev S64 : Shape := ⟨1, ![64]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S65536x128, .f32⟩
  | .hbm, ⟨2, _⟩ => ⟨S128x65536, .f32⟩
  | .hbm, ⟨3, _⟩ => ⟨S64x65536, .f32⟩
  | .hbm, ⟨4, _⟩ => ⟨S_, .f32⟩
  | .hbm, ⟨5, _⟩ => ⟨S64x65536, .f32⟩
  | .hbm, ⟨6, _⟩ => ⟨S64x65536, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x65536, .f32⟩
  | .hbm, ⟨14, _⟩ => ⟨S64x65536, .f32⟩
  | .hbm, ⟨15, _⟩ => ⟨S64x65536, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x65536, .f32⟩
  | .hbm, ⟨20, _⟩ => ⟨S64x65536, .f32⟩
  | .hbm, ⟨21, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S65536x128_S128x65536_1_0 : S65536x128.Transposes [1, 0] S128x65536
  bcast_S_S64x65536 : S_.BroadcastsInDim S64x65536 (![] : Fin 0 → Fin S64x65536.rank)
  reducesTo_S64x65536_S64_d1 : S64x65536.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x65536_0_1 : S64x1.BroadcastsInDim S64x65536 (![0, 1] : Fin 2 → Fin S64x65536.rank)
  dot_S64x128_S128x65536_S64x65536_1_0_0_1_n_n_wf : DotDims.WF S64x128 S128x65536 S64x65536 [1] [0] [0] [1] [] []
  dot_S64x65536_S65536x128_S64x128_1_0_0_1_n_n_wf : DotDims.WF S64x65536 S65536x128 S64x128 [1] [0] [0] [1] [] []

variable [Facts₀]

def dot_S64x128_S128x65536_S64x65536_1_0_0_1_n_n : DotDims S64x128 S128x65536 S64x65536 where
  lhsContracting := [1]
  rhsContracting := [0]
  lhsNonContracting := [0]
  rhsNonContracting := [1]
  lhsBatch := []
  rhsBatch := []
  wf := dot_S64x128_S128x65536_S64x65536_1_0_0_1_n_n_wf
def dot_S64x65536_S65536x128_S64x128_1_0_0_1_n_n : DotDims S64x65536 S65536x128 S64x128 where
  lhsContracting := [1]
  rhsContracting := [0]
  lhsNonContracting := [0]
  rhsNonContracting := [1]
  lhsBatch := []
  rhsBatch := []
  wf := dot_S64x65536_S65536x128_S64x128_1_0_0_1_n_n_wf

class Facts : Prop extends Facts₀ where

variable [Facts]
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.Payloads.lean ====
/-
  The kernel body's arithmetic read at an index, at the ideal instance: one chunk's scores, the new running maximum,
  the rescaling factor, the chunk's exponentials, the new running sum and accumulator, and the final quotient.
-/
import proofs.«123920_g51857435131909_cont_8to1_c_104_12_alg».proof.Proof.Gen.KernelIdeal.Skeleton
import proofs.«123920_g51857435131909_cont_8to1_c_104_12_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

namespace Cert.Payloads

open Idealize.ShloMosaic Idealize.ShloMosaic.ValueIdx Cert.KernelIdeal Cert.KernelIdeal.Gen

/-! ## The operand indices of the two products

The scores contract the query's axis 1 with the chunk's axis 1: at output (b, r) and contraction coordinate e the
operands are read at (b, e) and (r, e). The accumulator's product contracts the exponentials' axis 1 with the
chunk's axis 0: at output (b, d) and contraction coordinate r the operands are read at (b, r) and (r, d). -/

theorem lhs_scores_0 (i : S64x512.Idx) (q : dot_S64x128_S512x128_S64x512_1_1_0_0_n_n.contr.Idx) :
    (dot_S64x128_S512x128_S64x512_1_1_0_0_n_n.lhsIdx i q 0).val = (i 0).val := by
  unfold DotDims.lhsIdx
  rw [dif_neg (show ¬(0 : Fin S64x128.rank) ∈ dot_S64x128_S512x128_S64x512_1_1_0_0_n_n.lhsBatch by decide), dif_pos (show (0 : Fin S64x128.rank) ∈ dot_S64x128_S512x128_S64x512_1_1_0_0_n_n.lhsNonContracting by decide)]
  rfl
theorem lhs_scores_1 (i : S64x512.Idx) (q : dot_S64x128_S512x128_S64x512_1_1_0_0_n_n.contr.Idx) :
    (dot_S64x128_S512x128_S64x512_1_1_0_0_n_n.lhsIdx i q 1).val = (q ⟨0, by decide⟩).val :=
  dot_S64x128_S512x128_S64x512_1_1_0_0_n_n.lhsIdx_val_of_single rfl i q
theorem rhs_scores_0 (i : S64x512.Idx) (q : dot_S64x128_S512x128_S64x512_1_1_0_0_n_n.contr.Idx) :
    (dot_S64x128_S512x128_S64x512_1_1_0_0_n_n.rhsIdx i q 0).val = (i 1).val := by
  unfold DotDims.rhsIdx
  rw [dif_neg (show ¬(0 : Fin S512x128.rank) ∈ dot_S64x128_S512x128_S64x512_1_1_0_0_n_n.rhsBatch by decide), dif_pos (show (0 : Fin S512x128.rank) ∈ dot_S64x128_S512x128_S64x512_1_1_0_0_n_n.rhsNonContracting by decide)]
  rfl
theorem rhs_scores_1 (i : S64x512.Idx) (q : dot_S64x128_S512x128_S64x512_1_1_0_0_n_n.contr.Idx) :
    (dot_S64x128_S512x128_S64x512_1_1_0_0_n_n.rhsIdx i q 1).val = (q ⟨0, by decide⟩).val :=
  dot_S64x128_S512x128_S64x512_1_1_0_0_n_n.rhsIdx_val_of_single rfl i q

theorem lhs_acc_0 (i : S64x128.Idx) (q : dot_S64x512_S512x128_S64x128_1_0_0_1_n_n.contr.Idx) :
    (dot_S64x512_S512x128_S64x128_1_0_0_1_n_n.lhsIdx i q 0).val = (i 0).val := by
  unfold DotDims.lhsIdx
  rw [dif_neg (show ¬(0 : Fin S64x512.rank) ∈ dot_S64x512_S512x128_S64x128_1_0_0_1_n_n.lhsBatch by decide), dif_pos (show (0 : Fin S64x512.rank) ∈ dot_S64x512_S512x128_S64x128_1_0_0_1_n_n.lhsNonContracting by decide)]
  rfl
theorem lhs_acc_1 (i : S64x128.Idx) (q : dot_S64x512_S512x128_S64x128_1_0_0_1_n_n.contr.Idx) :
    (dot_S64x512_S512x128_S64x128_1_0_0_1_n_n.lhsIdx i q 1).val = (q ⟨0, by decide⟩).val :=
  dot_S64x512_S512x128_S64x128_1_0_0_1_n_n.lhsIdx_val_of_single rfl i q
theorem rhs_acc_0 (i : S64x128.Idx) (q : dot_S64x512_S512x128_S64x128_1_0_0_1_n_n.contr.Idx) :
    (dot_S64x512_S512x128_S64x128_1_0_0_1_n_n.rhsIdx i q 0).val = (q ⟨0, by decide⟩).val :=
  dot_S64x512_S512x128_S64x128_1_0_0_1_n_n.rhsIdx_val_of_single rfl i q
theorem rhs_acc_1 (i : S64x128.Idx) (q : dot_S64x512_S512x128_S64x128_1_0_0_1_n_n.contr.Idx) :
    (dot_S64x512_S512x128_S64x128_1_0_0_1_n_n.rhsIdx i q 1).val = (i 1).val := by
  unfold DotDims.rhsIdx
  rw [dif_neg (show ¬(1 : Fin S512x128.rank) ∈ dot_S64x512_S512x128_S64x128_1_0_0_1_n_n.rhsBatch by decide), dif_pos (show (1 : Fin S512x128.rank) ∈ dot_S64x512_S512x128_S64x128_1_0_0_1_n_n.rhsNonContracting by decide)]
  rfl

/-- A reduced row index with the reduced coordinate put back is the matrix index. -/
theorem lift_row (b : Fin 64) (r : Fin 512) :
    reduces_S64x512_S64.lift (ix1 b) r = (ix2 b r : S64x512.Idx) := by
  funext a
  match a with
  | ⟨0, _⟩ => rfl
  | ⟨1, _⟩ => rfl

/-- The chunk's scores: row `b` of the query against row `r` of the chunk. -/
theorem pay5_apply (v3 : Vec Ideal S64x128 .f32) (v24 : Vec Ideal S512x128 .f32) (b : Fin 64) (r : Fin 512) :
    k0_pay5 (F := Ideal) v3 v24 (ix2 b r) = ∑ e : Fin 128, v3 (ix2 b e) * v24 (ix2 r e) := by
  unfold k0_pay5 k0_pay4
  dsimp only
  simp only [matmul]
  rw [Ideal.matmul_constant_zero_apply,
    ← Equiv.sum_comp (contrEquiv1 dot_S64x128_S512x128_S64x512_1_1_0_0_n_n 128 rfl rfl).symm]
  refine Finset.sum_congr rfl fun e _ => ?_
  have he := contrEquiv1_symm_val dot_S64x128_S512x128_S64x512_1_1_0_0_n_n 128 rfl rfl e
  have el : dot_S64x128_S512x128_S64x512_1_1_0_0_n_n.lhsIdx (ix2 b r)
      ((contrEquiv1 dot_S64x128_S512x128_S64x512_1_1_0_0_n_n 128 rfl rfl).symm e) = ix2 b e :=
    funext fun a => Fin.ext (by
      match a with
      | ⟨0, _⟩ => exact lhs_scores_0 _ _
      | ⟨1, _⟩ => exact (lhs_scores_1 _ _).trans he)
  have er : dot_S64x128_S512x128_S64x512_1_1_0_0_n_n.rhsIdx (ix2 b r)
      ((contrEquiv1 dot_S64x128_S512x128_S64x512_1_1_0_0_n_n 128 rfl rfl).symm e) = ix2 r e :=
    funext fun a => Fin.ext (by
      match a with
      | ⟨0, _⟩ => exact rhs_scores_0 _ _
      | ⟨1, _⟩ => exact (rhs_scores_1 _ _).trans he)
  rw [el, er]
  rfl

/-- The new running maximum of row `b`: the old one against the chunk's largest score (folded from `⊥`). -/
theorem pay6_apply (v3 : Vec Ideal S64x128 .f32) (arg8 : Vec Ideal S64x1 .f32) (v24 : Vec Ideal S512x128 .f32) (b : Fin 64) (u : Fin 1) :
    k0_pay6 (F := Ideal) v3 arg8 v24 (ix2 b u)
      = max (arg8 (ix2 b (0 : Fin 1))) ((Finset.univ : Finset (Fin 512)).fold max ⊥ (fun r => k0_pay5 (F := Ideal) v3 v24 (ix2 b r))) := by
  obtain rfl : u = 0 := Subsingleton.elim _ _
  unfold k0_pay6
  rw [maximumf_apply, Cert.LibLayout.shapeCast_a_a1_apply]
  refine congrArg (max (arg8 (ix2 b (0 : Fin 1)))) ?_
  refine (Ideal.multiReduction_maximumf_single (k0_pay5 (F := Ideal) v3 v24) _ reduces_S64x512_S64 _ _ (ix1 b)).trans ?_
  have hbot : (FloatOps.ofBits .f32 (0xFF800000#32) : Ideal .f32) = ⊥ := by
    show Ideal.ofBits .f32 0xFF800000#32 = ⊥
    simp [Ideal.ofBits, Ideal.ieee]
  rw [hbot]
  refine congrArg (fun f => (Finset.univ : Finset (Fin 512)).fold max ⊥ f) ?_
  funext r
  exact congrArg (k0_pay5 (F := Ideal) v3 v24) (lift_row b r)

/-- The rescaling factor of row `b`. -/
theorem pay7_apply (v3 : Vec Ideal S64x128 .f32) (arg8 : Vec Ideal S64x1 .f32) (v24 : Vec Ideal S512x128 .f32) (b : Fin 64) (u : Fin 1) :
    k0_pay7 (F := Ideal) v3 arg8 v24 (ix2 b u)
      = Ideal.exp (arg8 (ix2 b (0 : Fin 1)) - k0_pay6 (F := Ideal) v3 arg8 v24 (ix2 b (0 : Fin 1))) := by
  obtain rfl : u = 0 := Subsingleton.elim _ _
  rfl

/-- The chunk's exponentials. -/
theorem pay8_apply (v3 : Vec Ideal S64x128 .f32) (arg8 : Vec Ideal S64x1 .f32) (v24 : Vec Ideal S512x128 .f32) (b : Fin 64) (r : Fin 512) :
    k0_pay8 (F := Ideal) v3 arg8 v24 (ix2 b r)
      = Ideal.exp (k0_pay5 (F := Ideal) v3 v24 (ix2 b r) - k0_pay6 (F := Ideal) v3 arg8 v24 (ix2 b (0 : Fin 1))) := by
  unfold k0_pay8
  show Ideal.exp (k0_pay5 (F := Ideal) v3 v24 (ix2 b r) - broadcastTo S64x512 (k0_pay6 (F := Ideal) v3 arg8 v24) broadcasts_S64x1_S64x512 (ix2 b r)) = _
  rw [Cert.LibLayout.broadcastTo_a1_ab_apply]

/-- The new running sum of row `b`. -/
theorem pay9_apply (v3 : Vec Ideal S64x128 .f32) (arg8 arg9 : Vec Ideal S64x1 .f32) (v24 : Vec Ideal S512x128 .f32) (b : Fin 64) (u : Fin 1) :
    k0_pay9 (F := Ideal) v3 arg8 arg9 v24 (ix2 b u)
      = arg9 (ix2 b (0 : Fin 1)) * k0_pay7 (F := Ideal) v3 arg8 v24 (ix2 b (0 : Fin 1))
        + ∑ r : Fin 512, k0_pay8 (F := Ideal) v3 arg8 v24 (ix2 b r) := by
  obtain rfl : u = 0 := Subsingleton.elim _ _
  unfold k0_pay9
  rw [addf_apply, mulf_apply, Cert.LibLayout.shapeCast_a_a1_apply]
  refine congrArg (arg9 (ix2 b (0 : Fin 1)) * k0_pay7 (F := Ideal) v3 arg8 v24 (ix2 b (0 : Fin 1)) + ·) ?_
  refine (Ideal.multiReduction_add_single (k0_pay8 (F := Ideal) v3 arg8 v24) _ reduces_S64x512_S64 _ _ (ix1 b)).trans ?_
  refine Finset.sum_congr rfl fun r _ => ?_
  exact congrArg (k0_pay8 (F := Ideal) v3 arg8 v24) (lift_row b r)

/-- The new accumulator at `(b, d)`. -/
theorem pay10_apply (v3 : Vec Ideal S64x128 .f32) (arg8 : Vec Ideal S64x1 .f32) (arg10 : Vec Ideal S64x128 .f32) (v24 : Vec Ideal S512x128 .f32)
    (b : Fin 64) (d : Fin 128) :
    k0_pay10 (F := Ideal) v3 arg8 arg10 v24 (ix2 b d)
      = arg10 (ix2 b d) * k0_pay7 (F := Ideal) v3 arg8 v24 (ix2 b (0 : Fin 1))
        + ∑ r : Fin 512, k0_pay8 (F := Ideal) v3 arg8 v24 (ix2 b r) * v24 (ix2 r d) := by
  unfold k0_pay10 k0_pay4
  rw [addf_apply, mulf_apply, Cert.LibLayout.broadcastTo_a1_ab_apply]
  refine congrArg (arg10 (ix2 b d) * k0_pay7 (F := Ideal) v3 arg8 v24 (ix2 b (0 : Fin 1)) + ·) ?_
  simp only [matmul]
  rw [Ideal.matmul_constant_zero_apply,
    ← Equiv.sum_comp (contrEquiv1 dot_S64x512_S512x128_S64x128_1_0_0_1_n_n 512 rfl rfl).symm]
  refine Finset.sum_congr rfl fun r _ => ?_
  have hr := contrEquiv1_symm_val dot_S64x512_S512x128_S64x128_1_0_0_1_n_n 512 rfl rfl r
  have el : dot_S64x512_S512x128_S64x128_1_0_0_1_n_n.lhsIdx (ix2 b d)
      ((contrEquiv1 dot_S64x512_S512x128_S64x128_1_0_0_1_n_n 512 rfl rfl).symm r) = ix2 b r :=
    funext fun a => Fin.ext (by
      match a with
      | ⟨0, _⟩ => exact lhs_acc_0 _ _
      | ⟨1, _⟩ => exact (lhs_acc_1 _ _).trans hr)
  have er : dot_S64x512_S512x128_S64x128_1_0_0_1_n_n.rhsIdx (ix2 b d)
      ((contrEquiv1 dot_S64x512_S512x128_S64x128_1_0_0_1_n_n 512 rfl rfl).symm r) = ix2 r d :=
    funext fun a => Fin.ext (by
      match a with
      | ⟨0, _⟩ => exact (rhs_acc_0 _ _).trans hr
      | ⟨1, _⟩ => exact rhs_acc_1 _ _)
  rw [el, er]
  rfl

/-- The final quotient at `(b, d)`. -/
theorem pay14_apply (v9_1 : Vec Ideal S64x1 .f32) (v9_2 : Vec Ideal S64x128 .f32) (b : Fin 64) (d : Fin 128) :
    k0_pay14 (F := Ideal) v9_1 v9_2 (ix2 b d) = Ideal.div (v9_2 (ix2 b d)) (v9_1 (ix2 b (0 : Fin 1))) := by
  unfold k0_pay14
  rw [divf_apply, Cert.LibLayout.broadcastTo_a1_ab_apply]

/-- The reset values: zero accumulator, a real starting maximum, zero sum. -/
theorem pay1_apply (i : S64x128.Idx) : k0_pay1 (F := Ideal) i = 0 := by
  unfold k0_pay1
  rw [shapeCast_self]
  exact Ideal.ofBits_zero_f32

/-- A 32-bit pattern whose exponent field is not all ones denotes a real number: the sign times the significand times
    a power of two. -/
theorem ieee_real_of_exponent_ne (w : BitVec 32) (h : (w.extractLsb' 23 8).toNat ≠ 2 ^ 8 - 1) :
    ∃ x : ℝ, Ideal.ieee 8 23 w = (x : EReal) := by
  unfold Ideal.ieee
  dsimp only
  rw [if_neg h]
  split
  · exact ⟨_, rfl⟩
  · exact ⟨_, rfl⟩

theorem pay2_real : ∃ M₀ : ℝ, ∀ i : S64x1.Idx, k0_pay2 (F := Ideal) i = (M₀ : EReal) := by
  obtain ⟨x, hx⟩ := ieee_real_of_exponent_ne 0xF149F2CA#32 (by decide)
  refine ⟨x, fun i => ?_⟩
  unfold k0_pay2
  rw [shapeCast_self]
  exact hx

theorem pay3_apply (i : S64x1.Idx) : k0_pay3 (F := Ideal) i = 0 := by
  unfold k0_pay3
  rw [shapeCast_self]
  exact Ideal.ofBits_zero_f32

/-- The stores after the loop write the carried values themselves. -/
theorem pay11_eq {F : FTy → Type} [FloatOps F] (v : Vec F S64x1 .f32) : k0_pay11 (F := F) v = v := by
  exact shapeCast_self v _

theorem pay12_eq {F : FTy → Type} [FloatOps F] (v : Vec F S64x1 .f32) : k0_pay12 (F := F) v = v := by
  exact shapeCast_self v _

theorem pay13_eq {F : FTy → Type} [FloatOps F] (v : Vec F S64x128 .f32) : k0_pay13 (F := F) v = v := by
  exact shapeCast_self v _

end Cert.Payloads

end
-- ==== Proof.Softmax.lean ====
/-
  The arithmetic of a streamed softmax-weighted average, on one row, free of any array type.

  For scores `s j` and weights `w j` the average is `(∑ j, exp (s j) · w j) / (∑ j, exp (s j))`. Shifting every
  score by one real `M` multiplies numerator and denominator by `exp (-M)`, so the quotient
  `num s w M n / den s M n` does not depend on `M`. A streamed evaluation keeps a running shift `M`, the
  denominator `den s M n` and the numerators `num s (w d) M n` over the scores seen so far; when a chunk of further
  scores arrives and the shift moves to any real `M'`, multiplying the old sums by `exp (M - M')` and adding the
  chunk's terms at shift `M'` gives the sums over the longer prefix at shift `M'` (`exp (a - M) · exp (M - M') =
  exp (a - M')`). The two-pass evaluation normalises the weights first, `exp (s j - S) / den s S n`, and sums
  them against `w`: the same quotient at shift `S`. All of this is real arithmetic; on the extended reals it is used
  where every score, weight and shift is a real number, which is what `RowInv` records.
-/
import Idealize.ShloMosaic.PureOps.Ideal.Laws

noncomputable section

namespace Cert.Softmax

open Finset Idealize.ShloMosaic

/-! ## Real arithmetic -/

/-- The denominator over the first `n` scores at shift `M`. -/
def den (s : ℕ → ℝ) (M : ℝ) (n : ℕ) : ℝ := ∑ j ∈ range n, Real.exp (s j - M)

/-- The numerator over the first `n` scores at shift `M`. -/
def num (s w : ℕ → ℝ) (M : ℝ) (n : ℕ) : ℝ := ∑ j ∈ range n, Real.exp (s j - M) * w j

/-- The softmax-weighted average of `w` over the first `n` scores (stated at shift `0`). -/
def out (s w : ℕ → ℝ) (n : ℕ) : ℝ := num s w 0 n / den s 0 n

theorem den_zero (s : ℕ → ℝ) (M : ℝ) : den s M 0 = 0 := by simp [den]
theorem num_zero (s w : ℕ → ℝ) (M : ℝ) : num s w M 0 = 0 := by simp [num]

/-- Moving the shift from `M` to `M'` and appending `c` scores. -/
theorem den_step (s : ℕ → ℝ) (M M' : ℝ) (n c : ℕ) :
    den s M n * Real.exp (M - M') + ∑ r ∈ range c, Real.exp (s (n + r) - M') = den s M' (n + c) := by
  unfold den
  rw [sum_range_add, sum_mul]
  congr 1
  refine sum_congr rfl fun j _ => ?_
  rw [← Real.exp_add]; congr 1; ring

theorem num_step (s w : ℕ → ℝ) (M M' : ℝ) (n c : ℕ) :
    num s w M n * Real.exp (M - M') + ∑ r ∈ range c, Real.exp (s (n + r) - M') * w (n + r) = num s w M' (n + c) := by
  unfold num
  rw [sum_range_add, sum_mul]
  congr 1
  refine sum_congr rfl fun j _ => ?_
  rw [mul_right_comm, ← Real.exp_add]; congr 2; ring

theorem den_pos (s : ℕ → ℝ) (M : ℝ) {n : ℕ} (hn : 0 < n) : 0 < den s M n :=
  sum_pos (fun j _ => Real.exp_pos _) (nonempty_range_iff.mpr hn.ne')

theorem den_shift (s : ℕ → ℝ) (M S : ℝ) (n : ℕ) : den s M n = Real.exp (S - M) * den s S n := by
  unfold den
  rw [mul_sum]
  refine sum_congr rfl fun j _ => ?_
  rw [← Real.exp_add]; congr 1; ring

theorem num_shift (s w : ℕ → ℝ) (M S : ℝ) (n : ℕ) : num s w M n = Real.exp (S - M) * num s w S n := by
  unfold num
  rw [mul_sum]
  refine sum_congr rfl fun j _ => ?_
  rw [← mul_assoc, ← Real.exp_add]; congr 2; ring

/-- The quotient does not depend on the shift. -/
theorem ratio_shift (s w : ℕ → ℝ) (M S : ℝ) (n : ℕ) : num s w M n / den s M n = num s w S n / den s S n := by
  rw [num_shift s w M S, den_shift s M S, mul_div_mul_left _ _ (Real.exp_pos _).ne']

theorem ratio_eq_out (s w : ℕ → ℝ) (M : ℝ) (n : ℕ) : num s w M n / den s M n = out s w n := ratio_shift s w M 0 n

/-- Normalising first and summing afterwards is the same quotient. -/
theorem normalized_sum (s w : ℕ → ℝ) (S : ℝ) (n : ℕ) :
    ∑ j ∈ range n, Real.exp (s j - S) / den s S n * w j = out s w n := by
  rw [← ratio_eq_out s w S n]
  unfold num
  rw [sum_div]
  refine sum_congr rfl fun j _ => ?_
  rw [div_mul_eq_mul_div]

/-! ## Extended reals that are real numbers -/

/-- A finite sum of real numbers, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [sum_insert ha, sum_insert ha, EReal.coe_add, ih]

/-- The maximum of two real numbers, read in the extended reals. -/
theorem coe_max (a b : ℝ) : max (a : EReal) (b : EReal) = ((max a b : ℝ) : EReal) :=
  (EReal.coe_strictMono.monotone.map_max).symm

/-- A maximum folded from `⊥` (or from a real number) over real numbers is `⊥` only over the empty set. -/
theorem fold_max_coe {ι : Type} (S : Finset ι) (f : ι → ℝ) (b : EReal) (hb : b = ⊥ ∨ ∃ r : ℝ, b = r) :
    (S.fold max b (fun i => (f i : EReal)) = ⊥ ∧ S = ∅) ∨ ∃ r : ℝ, S.fold max b (fun i => (f i : EReal)) = r := by
  classical
  induction S using Finset.induction_on with
  | empty =>
    rcases hb with hb | ⟨r, hr⟩
    · exact Or.inl ⟨by simpa using hb, rfl⟩
    · exact Or.inr ⟨r, by simpa using hr⟩
  | insert a S ha ih =>
    right
    rw [fold_insert ha]
    rcases ih with ⟨h, _⟩ | ⟨r, hr⟩
    · exact ⟨f a, by rw [h]; exact max_bot_right _⟩
    · exact ⟨max (f a) r, by rw [hr, coe_max]⟩

/-- The running maximum after a chunk is a real number. -/
theorem max_fold_real {ι : Type} (S : Finset ι) (f : ι → ℝ) (M : ℝ) :
    ∃ M' : ℝ, max (M : EReal) (S.fold max ⊥ (fun i => (f i : EReal))) = M' := by
  rcases fold_max_coe S f ⊥ (Or.inl rfl) with ⟨h, _⟩ | ⟨r, hr⟩
  · exact ⟨M, by rw [h]; exact max_bot_right _⟩
  · exact ⟨max M r, by rw [hr, coe_max]⟩

/-! ## One row of the streamed evaluation -/

/-- After `n` scores of row scores `s` and weight columns `w d`: the running maximum is a real number `M`, the running
    sum is the denominator at shift `M`, and column `d` of the accumulator is the numerator of `w d` at shift `M`. -/
def RowInv (s : ℕ → ℝ) (w : Fin 128 → ℕ → ℝ) (n : ℕ) (mx l : EReal) (acc : Fin 128 → EReal) : Prop :=
  ∃ M : ℝ, mx = (M : EReal) ∧ l = ((den s M n : ℝ) : EReal) ∧ ∀ d, acc d = ((num s (w d) M n : ℝ) : EReal)

/-- Before any score: a real starting maximum, zero sums. -/
theorem RowInv.init (s : ℕ → ℝ) (w : Fin 128 → ℕ → ℝ) (M₀ : ℝ) : RowInv s w 0 (M₀ : EReal) 0 (fun _ => 0) :=
  ⟨M₀, rfl, by rw [den_zero]; rfl, fun d => by rw [num_zero]; rfl⟩

/-- One chunk of `c` further scores `sc` with weight rows `vv`: the new maximum, the rescaled sum plus the chunk's
    exponentials, the rescaled accumulator plus the chunk's weighted exponentials. -/
theorem RowInv.step {s : ℕ → ℝ} {w : Fin 128 → ℕ → ℝ} {n : ℕ} {mx l : EReal} {acc : Fin 128 → EReal}
    (h : RowInv s w n mx l acc) (c : ℕ) (sc : Fin c → EReal) (vv : Fin c → Fin 128 → EReal)
    (hsc : ∀ r, sc r = ((s (n + r.val) : ℝ) : EReal)) (hv : ∀ r d, vv r d = ((w d (n + r.val) : ℝ) : EReal)) :
    RowInv s w (n + c) (max mx (univ.fold max ⊥ sc))
      (l * Ideal.exp (mx - max mx (univ.fold max ⊥ sc)) + ∑ r, Ideal.exp (sc r - max mx (univ.fold max ⊥ sc)))
      (fun d => acc d * Ideal.exp (mx - max mx (univ.fold max ⊥ sc))
        + ∑ r, Ideal.exp (sc r - max mx (univ.fold max ⊥ sc)) * vv r d) := by
  obtain ⟨M, hM, hl, hacc⟩ := h
  have hsc' : sc = fun r => ((s (n + r.val) : ℝ) : EReal) := funext hsc
  obtain ⟨M', hM'⟩ := max_fold_real (univ : Finset (Fin c)) (fun r => s (n + r.val)) M
  rw [hM, hsc', hM']
  refine ⟨M', rfl, ?_, fun d => ?_⟩
  · rw [hl, ← den_step s M M' n c, Finset.sum_range (fun r => Real.exp (s (n + r) - M'))]
    simp only [← EReal.coe_sub, Ideal.exp_coe, ← EReal.coe_mul, ← coe_sum, ← EReal.coe_add]
  · dsimp only
    rw [hacc d, ← num_step s (w d) M M' n c,
      Finset.sum_range (fun r => Real.exp (s (n + r) - M') * w d (n + r))]
    simp only [hv, ← EReal.coe_sub, Ideal.exp_coe, ← EReal.coe_mul, ← coe_sum, ← EReal.coe_add]

/-- After all `n > 0` scores, accumulator over sum is the softmax-weighted average. -/
theorem RowInv.final {s : ℕ → ℝ} {w : Fin 128 → ℕ → ℝ} {n : ℕ} {mx l : EReal} {acc : Fin 128 → EReal}
    (h : RowInv s w n mx l acc) (hn : 0 < n) (d : Fin 128) : Ideal.div (acc d) l = ((out s (w d) n : ℝ) : EReal) := by
  obtain ⟨M, -, hl, hacc⟩ := h
  rw [hl, hacc d, Ideal.div_coe (den_pos s M hn).ne', ← EReal.coe_mul, ← ratio_eq_out s (w d) M n, mul_one_div]

/-! ## The two-pass evaluation of one row -/

/-- Scores divided by one, the maximum taken from `⊥` twice over, exponentials of the differences, each divided by
    their sum from zero, summed against the weights. -/
theorem two_pass (s w : ℕ → ℝ) (N : ℕ) (hN : 0 < N) (sc vv : Fin N → EReal)
    (hsc : ∀ j, sc j = ((s j.val : ℝ) : EReal)) (hv : ∀ j, vv j = ((w j.val : ℝ) : EReal)) :
    ∑ j, Ideal.div (Ideal.exp (Ideal.div (sc j) ((1 : ℝ) : EReal)
            - max ⊥ (univ.fold max ⊥ fun k => Ideal.div (sc k) ((1 : ℝ) : EReal))))
          (0 + ∑ k, Ideal.exp (Ideal.div (sc k) ((1 : ℝ) : EReal)
            - max ⊥ (univ.fold max ⊥ fun k' => Ideal.div (sc k') ((1 : ℝ) : EReal))))
        * vv j
      = ((out s w N : ℝ) : EReal) := by
  have hd : ∀ j, Ideal.div (sc j) ((1 : ℝ) : EReal) = ((s j.val : ℝ) : EReal) := fun j => by
    rw [Ideal.div_coe one_ne_zero, hsc j, ← EReal.coe_mul]; congr 1; simp
  simp only [hd]
  haveI : Nonempty (Fin N) := ⟨⟨0, hN⟩⟩
  obtain ⟨S, hS⟩ : ∃ S : ℝ, max ⊥ ((univ : Finset (Fin N)).fold max ⊥ fun k => ((s k.val : ℝ) : EReal)) = S := by
    rcases fold_max_coe (univ : Finset (Fin N)) (fun k => s k.val) ⊥ (Or.inl rfl) with ⟨_, he⟩ | ⟨r, hr⟩
    · exact absurd he univ_nonempty.ne_empty
    · exact ⟨r, by rw [hr]; exact max_bot_left _⟩
  rw [hS]
  have hden : (0 : EReal) + ∑ k : Fin N, Ideal.exp (((s k.val : ℝ) : EReal) - (S : EReal)) = ((den s S N : ℝ) : EReal) := by
    rw [zero_add]; unfold den
    rw [Finset.sum_range (fun k => Real.exp (s k - S)), coe_sum]
    refine sum_congr rfl fun k _ => ?_
    rw [← EReal.coe_sub, Ideal.exp_coe]
  rw [hden, ← normalized_sum s w S N, Finset.sum_range (fun j => Real.exp (s j - S) / den s S N * w j), coe_sum]
  refine sum_congr rfl fun j _ => ?_
  rw [hv j, ← EReal.coe_sub, Ideal.exp_coe, Ideal.div_coe (den_pos s S hN).ne', ← EReal.coe_mul, ← EReal.coe_mul,
    mul_one_div]

end Cert.Softmax

end
-- ==== Proof.Spec.lean ====
/-
  What both programs compute, as one function of the two argument arrays.

  The query array `x0 : [64, 128]` and the memory array `x1 : [65536, 128]` are read as real numbers (`qR`, `memR`; a
  precondition makes every entry one). Row `b` of the result is the softmax-weighted average of the memory's rows,
  weighted by the scores `score b j = ∑ e, q[b, e] · mem[j, e]`: entry `(b, d)` is
  `(∑ j, exp (score b j) · mem[j, d]) / (∑ j, exp (score b j))`, the quotient `Softmax.out` of Softmax.lean.
-/
import proofs.«123920_g51857435131909_cont_8to1_c_104_12_alg».proof.Proof.Softmax
import Idealize.ShloMosaic.Lib.ValueIdx

noncomputable section

namespace Cert.Spec

open Idealize.ShloMosaic Idealize.ShloMosaic.ValueIdx

/-- Every entry of an array over the extended reals is a real number. -/
def AllReal {S : Shape} (x : S.Idx → EReal) : Prop := ∀ i, x i = (((x i).toReal : ℝ) : EReal)

/-- The query's entry `(b, e)` as a real number. -/
def qR (x0 : (⟨2, ![64, 128]⟩ : Shape).Idx → EReal) (b : Fin 64) (e : Fin 128) : ℝ := (x0 (ix2 b e)).toReal

/-- The memory's entry `(j, e)` as a real number, for a row number `j` given as a natural number (zero past the array). -/
def memR (x1 : (⟨2, ![65536, 128]⟩ : Shape).Idx → EReal) (j : ℕ) (e : Fin 128) : ℝ :=
  if h : j < 65536 then (x1 (ix2 (⟨j, h⟩ : Fin 65536) e)).toReal else 0

/-- The score of memory row `j` against query row `b`. -/
def score (x0 : (⟨2, ![64, 128]⟩ : Shape).Idx → EReal) (x1 : (⟨2, ![65536, 128]⟩ : Shape).Idx → EReal) (b : Fin 64) (j : ℕ) : ℝ :=
  ∑ e : Fin 128, qR x0 b e * memR x1 j e

/-- The result's entry `(b, d)`. -/
def Gat (x0 : (⟨2, ![64, 128]⟩ : Shape).Idx → EReal) (x1 : (⟨2, ![65536, 128]⟩ : Shape).Idx → EReal) (b : Fin 64) (d : Fin 128) : EReal :=
  ((Softmax.out (score x0 x1 b) (fun j => memR x1 j d) 65536 : ℝ) : EReal)

/-- The result array. -/
def G (x0 : (⟨2, ![64, 128]⟩ : Shape).Idx → EReal) (x1 : (⟨2, ![65536, 128]⟩ : Shape).Idx → EReal) :
    (⟨2, ![64, 128]⟩ : Shape).Idx → EReal :=
  fun i => Gat x0 x1 ⟨(i 0).val, idx2_lt0 i⟩ ⟨(i 1).val, idx2_lt1 i⟩

theorem G_ix2 (x0 : (⟨2, ![64, 128]⟩ : Shape).Idx → EReal) (x1 : (⟨2, ![65536, 128]⟩ : Shape).Idx → EReal) (b : Fin 64) (d : Fin 128) :
    G x0 x1 (ix2 b d) = Gat x0 x1 b d := rfl

/-- An array is `G` once it is `Gat` at every pair of coordinates. -/
theorem eq_G_of_ix2 (x0 : (⟨2, ![64, 128]⟩ : Shape).Idx → EReal) (x1 : (⟨2, ![65536, 128]⟩ : Shape).Idx → EReal)
    (y : (⟨2, ![64, 128]⟩ : Shape).Idx → EReal) (h : ∀ (b : Fin 64) (d : Fin 128), y (ix2 b d) = Gat x0 x1 b d) : y = G x0 x1 := by
  funext i
  have hi : i = ix2 (⟨(i 0).val, idx2_lt0 i⟩ : Fin 64) (⟨(i 1).val, idx2_lt1 i⟩ : Fin 128) := by
    funext a; match a with | ⟨0, _⟩ => rfl | ⟨1, _⟩ => rfl
  exact (congrArg y hi).trans (h _ _)

variable {x0 : (⟨2, ![64, 128]⟩ : Shape).Idx → EReal} {x1 : (⟨2, ![65536, 128]⟩ : Shape).Idx → EReal}

theorem q_eq (h0 : AllReal x0) (b : Fin 64) (e : Fin 128) : x0 (ix2 b e) = ((qR x0 b e : ℝ) : EReal) := h0 _

theorem mem_eq (h1 : AllReal x1) (j : Fin 65536) (e : Fin 128) : x1 (ix2 j e) = ((memR x1 j.val e : ℝ) : EReal) := by
  unfold memR
  rw [dif_pos j.isLt]
  exact h1 _

/-- The same with the row number given as a natural number below the extent. -/
theorem mem_eq' (h1 : AllReal x1) (j : ℕ) (hj : j < 65536) (e : Fin 128) :
    x1 (ix2 (⟨j, hj⟩ : Fin 65536) e) = ((memR x1 j e : ℝ) : EReal) := mem_eq h1 ⟨j, hj⟩ e

/-- A row of the query against a row of the memory, in the extended reals, is the real score. -/
theorem score_eq (h0 : AllReal x0) (h1 : AllReal x1) (b : Fin 64) (j : ℕ) (hj : j < 65536) :
    ∑ e : Fin 128, x0 (ix2 b e) * x1 (ix2 (⟨j, hj⟩ : Fin 65536) e) = ((score x0 x1 b j : ℝ) : EReal) := by
  unfold score
  rw [Softmax.coe_sum]
  refine Finset.sum_congr rfl fun e _ => ?_
  rw [q_eq h0, mem_eq' h1, ← EReal.coe_mul]

end Cert.Spec

end
-- ==== Proof.Trip.lean ====
/-
  The inner loop of the kernel body, as values.

  One trip reads chunk `k` of the tile (512 memory rows from row `512 k`) and updates the carried running maximum,
  running sum and accumulator by the body's arithmetic (`tripFn`). Read row by row at the ideal instance, with the
  query and the tile holding real numbers, a trip is one step of the streamed softmax average of Softmax.lean
  (`RowInv.step`): the chunk's scores are the real scores of the memory rows it holds. Sixteen trips consume the
  tile's 8192 rows.
-/
import proofs.«123920_g51857435131909_cont_8to1_c_104_12_alg».proof.Proof.Gen.KernelIdeal.Frame
import proofs.«123920_g51857435131909_cont_8to1_c_104_12_alg».proof.Proof.Payloads
import proofs.«123920_g51857435131909_cont_8to1_c_104_12_alg».proof.Proof.Spec

set_option maxRecDepth 16384

noncomputable section

namespace Cert.Trip

open Idealize.ShloMosaic Idealize.ShloMosaic.TcCoe Idealize.ShloMosaic.Tactic Idealize.ShloMosaic.ValueIdx
open Cert.KernelIdeal Cert.KernelIdeal.Gen Idealize.SL.Sem

variable {F : FTy → Type} [FloatOps F]

/-- The values the inner loop carries: running maximum, running sum, accumulator. -/
abbrev Carried (F : FTy → Type) [FloatOps F] : Type := Vec F S64x1 .f32 × Vec F S64x1 .f32 × Vec F S64x128 .f32

/-- One trip's update of the carried values from a chunk of memory rows. -/
def tripFn (v3 : Vec F S64x128 .f32) (ch : Vec F S512x128 .f32) (acc : Carried F) : Carried F :=
  (k0_pay6 v3 acc.1 ch, k0_pay9 v3 acc.1 acc.2.1 ch, k0_pay10 v3 acc.1 acc.2.2 ch)

/-- Chunk `k` of a tile: what the trip's load reads of the tile's buffer. -/
def chunkOf (arg2 : Memref sig .tc .vmem S8192x128 .f32) (X : BufTy.Contents (Elt F) arg2.view.ty) (k : Fin k0_t1_loop.trips) :
    Vec F S512x128 .f32 :=
  View.readAt (Elt F) arg2.view (Rect.unit (s := S8192x128) (k0_off1 k) S512x128.size (k0_off1_inb k)).toLoadRect X

/-- A trip's result is the body's arithmetic of the carried values and the trip's chunk. -/
theorem tripR_eq (𝒱 : Variants) (c : Dev nD) (bd : Option 𝒱.V) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (v3 : Vec F S64x128 .f32) (X : BufTy.Contents (Elt F) arg2.view.ty) (k : Fin k0_t1_loop.trips) (acc : Carried F) :
    tripR_k0_t1 (F := F) 𝒱 c bd i arg1 harg1 arg2 harg2 arg3 harg3 arg4 harg4 arg5 harg5 arg6 harg6 v3 X k acc = tripFn v3 (chunkOf arg2 X k) acc := by
  unfold tripR_k0_t1 trip_k0_t1
  rfl

/-- Row `r` of chunk `k` of a tile is row `512 k + r` of the tile. -/
theorem chunkOf_apply (arg2 : Memref sig .tc .vmem S8192x128 .f32) (harg2 : arg2.IsWhole) (x1 : Vec F S8192x128 .f32)
    (k : Fin k0_t1_loop.trips) (r : Fin 512) (e : Fin 128) (hr : 512 * k.val + r.val < 8192) :
    chunkOf arg2 (harg2.unread x1) k (ix2 r e) = x1 (ix2 (⟨512 * k.val + r.val, hr⟩ : Fin 8192) e) := by
  unfold chunkOf
  rw [View.readAt_eq_ld, harg2.read_unread]
  show x1 _ = x1 _
  refine congrArg x1 (funext fun a => Fin.ext ?_)
  have hk := congrFun (k0_off1_eq k)
  match a with
  | ⟨0, _⟩ =>
    show k0_off1 k 0 + 1 * r.val = 512 * k.val + r.val
    rw [hk 0]; show 512 * k.val + 1 * r.val = _; omega
  | ⟨1, _⟩ =>
    show k0_off1 k 1 + 1 * e.val = e.val
    rw [hk 1]; show 0 + 1 * e.val = _; omega

/-! ## At the ideal instance: a trip is one step of the streamed average, row by row -/

/-- After `n` memory rows, every row `b` of the carried values is in the state `Softmax.RowInv` describes, for the
    scores of query row `b` and the memory's columns as weights. -/
def StateInv (x0 : (⟨2, ![64, 128]⟩ : Shape).Idx → EReal) (x1 : (⟨2, ![65536, 128]⟩ : Shape).Idx → EReal) (n : ℕ)
    (acc : Carried Ideal) : Prop :=
  ∀ b : Fin 64, Cert.Softmax.RowInv (Cert.Spec.score x0 x1 b) (fun d j => Cert.Spec.memR x1 j d) n
    (acc.1 (ix2 b (0 : Fin 1))) (acc.2.1 (ix2 b (0 : Fin 1))) (fun d => acc.2.2 (ix2 b d))

variable {x0 : (⟨2, ![64, 128]⟩ : Shape).Idx → EReal} {x1 : (⟨2, ![65536, 128]⟩ : Shape).Idx → EReal}

/-- One trip over a chunk holding memory rows `n … n + 511`. -/
theorem tripFn_inv {n : ℕ} (v3 : Vec Ideal S64x128 .f32) (ch : Vec Ideal S512x128 .f32) (acc : Carried Ideal)
    (hv3 : ∀ (b : Fin 64) (e : Fin 128), v3 (ix2 b e) = ((Cert.Spec.qR x0 b e : ℝ) : EReal))
    (hch : ∀ (r : Fin 512) (e : Fin 128), ch (ix2 r e) = ((Cert.Spec.memR x1 (n + r.val) e : ℝ) : EReal))
    (h : StateInv x0 x1 n acc) : StateInv x0 x1 (n + 512) (tripFn v3 ch acc) := by
  intro b
  have hsc : ∀ r : Fin 512, k0_pay5 (F := Ideal) v3 ch (ix2 b r) = ((Cert.Spec.score x0 x1 b (n + r.val) : ℝ) : EReal) := fun r => by
    rw [Cert.Payloads.pay5_apply]
    unfold Cert.Spec.score
    rw [Cert.Softmax.coe_sum]
    refine Finset.sum_congr rfl fun e _ => ?_
    rw [hv3, hch, ← EReal.coe_mul]
  have hstep := (h b).step 512 (fun r => k0_pay5 (F := Ideal) v3 ch (ix2 b r)) (fun r d => ch (ix2 r d)) hsc (fun r d => hch r d)
  unfold tripFn
  dsimp only
  have e6 := Cert.Payloads.pay6_apply v3 acc.1 ch b (0 : Fin 1)
  have e7 := Cert.Payloads.pay7_apply v3 acc.1 ch b (0 : Fin 1)
  have e9 := Cert.Payloads.pay9_apply v3 acc.1 acc.2.1 ch b (0 : Fin 1)
  have e8 : ∀ r : Fin 512, k0_pay8 (F := Ideal) v3 acc.1 ch (ix2 b r)
      = Ideal.exp (k0_pay5 (F := Ideal) v3 ch (ix2 b r) - k0_pay6 (F := Ideal) v3 acc.1 ch (ix2 b (0 : Fin 1))) :=
    fun r => Cert.Payloads.pay8_apply v3 acc.1 ch b r
  have e10 : ∀ d : Fin 128, k0_pay10 (F := Ideal) v3 acc.1 acc.2.2 ch (ix2 b d)
      = acc.2.2 (ix2 b d) * k0_pay7 (F := Ideal) v3 acc.1 ch (ix2 b (0 : Fin 1))
        + ∑ r : Fin 512, k0_pay8 (F := Ideal) v3 acc.1 ch (ix2 b r) * ch (ix2 r d) :=
    fun d => Cert.Payloads.pay10_apply v3 acc.1 acc.2.2 ch b d
  rw [e9, e7]
  simp only [e10, e8, e7]
  rw [e6]
  exact hstep

/-- The carried values before trip `k` of a tile holding memory rows `n0 … n0 + 8191`: `512 k` further rows consumed. -/
theorem st_inv (𝒱 : Variants) (c : Dev nD) (bd : Option 𝒱.V) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (v3 : Vec Ideal S64x128 .f32) (x1t : Vec Ideal S8192x128 .f32) (init : Carried Ideal) (n0 : ℕ)
    (hv3 : ∀ (b : Fin 64) (e : Fin 128), v3 (ix2 b e) = ((Cert.Spec.qR x0 b e : ℝ) : EReal))
    (hx1 : ∀ (ρ : Fin 8192) (e : Fin 128), x1t (ix2 ρ e) = ((Cert.Spec.memR x1 (n0 + ρ.val) e : ℝ) : EReal))
    (h0 : StateInv x0 x1 n0 init) :
    ∀ k : ℕ, k ≤ k0_t1_loop.trips →
      StateInv x0 x1 (n0 + 512 * k) (st_k0_t1 (F := Ideal) 𝒱 c bd i arg1 harg1 arg2 harg2 arg3 harg3 arg4 harg4 arg5 harg5 arg6 harg6 v3 (harg2.unread x1t) init k)
  | 0, _ => h0
  | k + 1, hk => by
    have ih := st_inv 𝒱 c bd i arg1 harg1 arg2 harg2 arg3 harg3 arg4 harg4 arg5 harg5 arg6 harg6 v3 x1t init n0 hv3 hx1 h0 k (Nat.le_of_succ_le hk)
    have hk16 : k < 16 := Nat.lt_of_lt_of_le hk k0_t1_abs.2.1
    have e := st_k0_t1_succ (F := Ideal) 𝒱 c bd i arg1 harg1 arg2 harg2 arg3 harg3 arg4 harg4 arg5 harg5 arg6 harg6 v3 (harg2.unread x1t) init (⟨k, hk⟩ : Fin k0_t1_loop.trips)
    rw [show n0 + 512 * (k + 1) = n0 + 512 * k + 512 by ring]
    refine (congrArg (StateInv x0 x1 (n0 + 512 * k + 512)) (e.trans (tripR_eq ..))).mpr ?_
    refine tripFn_inv v3 _ _ hv3 (fun r e => ?_) ih
    have hr : 512 * k + r.val < 8192 := by have := r.isLt; omega
    rw [chunkOf_apply arg2 harg2 x1t ⟨k, hk⟩ r e hr, hx1, Nat.add_assoc]

end Cert.Trip

end
-- ==== Proof.Pieces.lean ====
/-
  What each case of the kernel body leaves behind, as values.

  In every case the body runs the inner loop from some starting values and stores the loop's three results into the
  three scratch buffers. At the first grid point the starting values are the reset values the body has just stored
  (zero accumulator, the starting maximum, zero sum); at the other points they are what the scratch buffers held,
  that is what the point before left. At the last point the body also stores accumulator / sum into the output block.
-/
import proofs.«123920_g51857435131909_cont_8to1_c_104_12_alg».proof.Proof.Trip
import Idealize.ShloMosaic.Lib.Pipeline.Value

set_option maxRecDepth 16384

noncomputable section

namespace Cert.Pieces

open Idealize.ShloMosaic Idealize.ShloMosaic.TcCoe Idealize.ShloMosaic.Tactic Idealize.ShloMosaic.ValueIdx
open Cert.KernelIdeal Cert.KernelIdeal.Gen Idealize.SL.Sem Cert.Trip

variable {F : FTy → Type} [FloatOps F]

theorem hz : (![0, 0] : Fin 2 → Nat) = fun _ => 0 := funext fun a => by fin_cases a <;> rfl

/-- The loop's results at a point whose query block is `x0` and whose tile is `x1`, from the starting values `init`. -/
def loopRes (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (x0 : Vec F S64x128 .f32) (x1 : Vec F S8192x128 .f32) (init : Carried F) : Carried F :=
  st_k0_t1 (F := F) Variants.none c none i arg1 harg1 arg2 harg2 arg3 harg3 arg4 harg4 arg5 harg5 arg6 harg6 x0 (harg2.unread x1) init k0_t1_loop.trips

/-- The reset values of the first grid point. -/
def resetVals : Carried F := (k0_pay2 (F := F), k0_pay3 (F := F), k0_pay1 (F := F))

/-! ## Case A: the first grid point -/

theorem sA0 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : cond0_0 i) (hc1 : ¬cond0_1 i) (x0 : Vec F S64x128 .f32) (x1 : Vec F S8192x128 .f32) :
    sout0_A_0 (F := F) c i arg1 harg1 arg2 harg2 arg3 harg3 arg4 harg4 arg5 harg5 arg6 harg6 hc0 hc1 x0 x1 = k0_pay13 (loopRes c i arg1 harg1 arg2 harg2 arg3 harg3 arg4 harg4 arg5 harg5 arg6 harg6 x0 x1 resetVals).2.2 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S64x128) hz]
  simp only [View.readCov_unit_zero (S := S64x128) _ hz, View.readCov_unit_zero (S := S64x1) _ hz, View.readAt_eq_ld,
    harg1.read_unread, View.ld_unit_zero (S := S64x128) hz]
  rfl

theorem sA1 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : cond0_0 i) (hc1 : ¬cond0_1 i) (x0 : Vec F S64x128 .f32) (x1 : Vec F S8192x128 .f32) :
    sout0_A_1 (F := F) c i arg1 harg1 arg2 harg2 arg3 harg3 arg4 harg4 arg5 harg5 arg6 harg6 hc0 hc1 x0 x1 = k0_pay11 (loopRes c i arg1 harg1 arg2 harg2 arg3 harg3 arg4 harg4 arg5 harg5 arg6 harg6 x0 x1 resetVals).1 := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S64x1) hz]
  simp only [View.readCov_unit_zero (S := S64x128) _ hz, View.readCov_unit_zero (S := S64x1) _ hz, View.readAt_eq_ld,
    harg1.read_unread, View.ld_unit_zero (S := S64x128) hz]
  rfl

theorem sA2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : cond0_0 i) (hc1 : ¬cond0_1 i) (x0 : Vec F S64x128 .f32) (x1 : Vec F S8192x128 .f32) :
    sout0_A_2 (F := F) c i arg1 harg1 arg2 harg2 arg3 harg3 arg4 harg4 arg5 harg5 arg6 harg6 hc0 hc1 x0 x1 = k0_pay12 (loopRes c i arg1 harg1 arg2 harg2 arg3 harg3 arg4 harg4 arg5 harg5 arg6 harg6 x0 x1 resetVals).2.1 := by
  unfold sout0_A_2
  rw [View.read_writes_eq_canon _ _ _ (scover0_A_2 c i arg1 harg1 arg2 harg2 arg3 harg3 arg4 harg4 arg5 harg5 arg6 harg6 hc0 hc1 x0 x1)]
  unfold kernelRun0_A
  dsimp only
  sl_unfold_words
  rw [View.canon_cons_unit_zero (S := S64x1) hz]
  simp only [View.readCov_unit_zero (S := S64x128) _ hz, View.readCov_unit_zero (S := S64x1) _ hz, View.readAt_eq_ld,
    harg1.read_unread, View.ld_unit_zero (S := S64x128) hz]
  rfl

/-! ## Case B -/

theorem sB0 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : ¬cond0_1 i) (x0 : Vec F S64x128 .f32) (x1 : Vec F S8192x128 .f32) (xs0 : Vec F S64x128 .f32) (xs1 : Vec F S64x1 .f32) (xs2 : Vec F S64x1 .f32) :
    sout0_B_0 (F := F) c i arg1 harg1 arg2 harg2 arg3 harg3 arg4 harg4 arg5 harg5 arg6 harg6 hc0 hc1 x0 x1 xs0 xs1 xs2 = k0_pay13 (loopRes c i arg1 harg1 arg2 harg2 arg3 harg3 arg4 harg4 arg5 harg5 arg6 harg6 x0 x1 (xs1, xs2, xs0)).2.2 := by
  unfold sout0_B_0
  rw [View.read_writes_eq_canon _ _ _ (scover0_B_0 c i arg1 harg1 arg2 harg2 arg3 harg3 arg4 harg4 arg5 harg5 arg6 harg6 hc0 hc1 x0 x1 xs0 xs1 xs2)]
  unfold kernelRun0_B
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

theorem sB1 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : ¬cond0_1 i) (x0 : Vec F S64x128 .f32) (x1 : Vec F S8192x128 .f32) (xs0 : Vec F S64x128 .f32) (xs1 : Vec F S64x1 .f32) (xs2 : Vec F S64x1 .f32) :
    sout0_B_1 (F := F) c i arg1 harg1 arg2 harg2 arg3 harg3 arg4 harg4 arg5 harg5 arg6 harg6 hc0 hc1 x0 x1 xs0 xs1 xs2 = k0_pay11 (loopRes c i arg1 harg1 arg2 harg2 arg3 harg3 arg4 harg4 arg5 harg5 arg6 harg6 x0 x1 (xs1, xs2, xs0)).1 := by
  unfold sout0_B_1
  rw [View.read_writes_eq_canon _ _ _ (scover0_B_1 c i arg1 harg1 arg2 harg2 arg3 harg3 arg4 harg4 arg5 harg5 arg6 harg6 hc0 hc1 x0 x1 xs0 xs1 xs2)]
  unfold kernelRun0_B
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

theorem sB2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : ¬cond0_1 i) (x0 : Vec F S64x128 .f32) (x1 : Vec F S8192x128 .f32) (xs0 : Vec F S64x128 .f32) (xs1 : Vec F S64x1 .f32) (xs2 : Vec F S64x1 .f32) :
    sout0_B_2 (F := F) c i arg1 harg1 arg2 harg2 arg3 harg3 arg4 harg4 arg5 harg5 arg6 harg6 hc0 hc1 x0 x1 xs0 xs1 xs2 = k0_pay12 (loopRes c i arg1 harg1 arg2 harg2 arg3 harg3 arg4 harg4 arg5 harg5 arg6 harg6 x0 x1 (xs1, xs2, xs0)).2.1 := by
  unfold sout0_B_2
  rw [View.read_writes_eq_canon _ _ _ (scover0_B_2 c i arg1 harg1 arg2 harg2 arg3 harg3 arg4 harg4 arg5 harg5 arg6 harg6 hc0 hc1 x0 x1 xs0 xs1 xs2)]
  unfold kernelRun0_B
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

/-! ## Case C -/

theorem sC0 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i) (x0 : Vec F S64x128 .f32) (x1 : Vec F S8192x128 .f32) (xs0 : Vec F S64x128 .f32) (xs1 : Vec F S64x1 .f32) (xs2 : Vec F S64x1 .f32) :
    sout0_C_0 (F := F) c i arg1 harg1 arg2 harg2 arg3 harg3 arg4 harg4 arg5 harg5 arg6 harg6 hc0 hc1 x0 x1 xs0 xs1 xs2 = k0_pay13 (loopRes c i arg1 harg1 arg2 harg2 arg3 harg3 arg4 harg4 arg5 harg5 arg6 harg6 x0 x1 (xs1, xs2, xs0)).2.2 := by
  unfold sout0_C_0
  rw [View.read_writes_eq_canon _ _ _ (scover0_C_0 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

theorem sC1 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i) (x0 : Vec F S64x128 .f32) (x1 : Vec F S8192x128 .f32) (xs0 : Vec F S64x128 .f32) (xs1 : Vec F S64x1 .f32) (xs2 : Vec F S64x1 .f32) :
    sout0_C_1 (F := F) c i arg1 harg1 arg2 harg2 arg3 harg3 arg4 harg4 arg5 harg5 arg6 harg6 hc0 hc1 x0 x1 xs0 xs1 xs2 = k0_pay11 (loopRes c i arg1 harg1 arg2 harg2 arg3 harg3 arg4 harg4 arg5 harg5 arg6 harg6 x0 x1 (xs1, xs2, xs0)).1 := by
  unfold sout0_C_1
  rw [View.read_writes_eq_canon _ _ _ (scover0_C_1 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

theorem sC2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i) (x0 : Vec F S64x128 .f32) (x1 : Vec F S8192x128 .f32) (xs0 : Vec F S64x128 .f32) (xs1 : Vec F S64x1 .f32) (xs2 : Vec F S64x1 .f32) :
    sout0_C_2 (F := F) c i arg1 harg1 arg2 harg2 arg3 harg3 arg4 harg4 arg5 harg5 arg6 harg6 hc0 hc1 x0 x1 xs0 xs1 xs2 = k0_pay12 (loopRes c i arg1 harg1 arg2 harg2 arg3 harg3 arg4 harg4 arg5 harg5 arg6 harg6 x0 x1 (xs1, xs2, xs0)).2.1 := by
  unfold sout0_C_2
  rw [View.read_writes_eq_canon _ _ _ (scover0_C_2 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

/-- At the last point the output block is accumulator over sum of the loop's results. -/
theorem oC2 (c : Dev nD) (i : grid0.Coords) (arg1 : Memref sig .tc .vmem S64x128 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x1 .f32) (harg5 : arg5.IsWhole) (arg6 : Memref sig .tc .vmem S64x1 .f32) (harg6 : arg6.IsWhole) (hc0 : ¬cond0_0 i) (hc1 : cond0_1 i) (x0 : Vec F S64x128 .f32) (x1 : Vec F S8192x128 .f32) (xs0 : Vec F S64x128 .f32) (xs1 : Vec F S64x1 .f32) (xs2 : Vec F S64x1 .f32) :
    out0_C_2 (F := F) c i arg1 harg1 arg2 harg2 arg3 harg3 arg4 harg4 arg5 harg5 arg6 harg6 hc0 hc1 x0 x1 xs0 xs1 xs2
      = k0_pay14 (loopRes c i arg1 harg1 arg2 harg2 arg3 harg3 arg4 harg4 arg5 harg5 arg6 harg6 x0 x1 (xs1, xs2, xs0)).2.1 (loopRes c i arg1 harg1 arg2 harg2 arg3 harg3 arg4 harg4 arg5 harg5 arg6 harg6 x0 x1 (xs1, xs2, xs0)).2.2 := by
  unfold out0_C_2
  rw [View.read_writes_eq_canon _ _ _ (cover0_C_2 c i arg1 harg1 arg2 harg2 arg3 harg3 arg4 harg4 arg5 harg5 arg6 harg6 hc0 hc1 x0 x1 xs0 xs1 xs2)]
  unfold kernelRun0_C
  dsimp only
  sl_unfold_words
  rw [View.canon_unit_zero hz]
  simp only [View.readAt_eq_ld, harg1.read_unread, harg4.read_unread, harg5.read_unread, harg6.read_unread,
    View.ld_unit_zero (S := S64x128) hz, View.ld_unit_zero (S := S64x1) hz]
  rfl

end Cert.Pieces

end
-- ==== Proof.Points.lean ====
/-
  The grid points, as values.

  Point `t` of the grid sees the whole query (its block never moves) and tile `t` of the memory (rows
  `8192 t … 8192 t + 8191`). What the three scratch buffers hold after point `t` (`carriedAt`) is the inner loop's result
  from the reset values at the first point, from what point `t - 1` left at the others; the output block after the last
  point is accumulator over sum of what that point left.
-/
import proofs.«123920_g51857435131909_cont_8to1_c_104_12_alg».proof.Proof.Pieces
import proofs.«123920_g51857435131909_cont_8to1_c_104_12_alg».proof.Proof.Gen.KernelIdeal.Value

set_option maxRecDepth 16384

noncomputable section

namespace Cert.Points

open Idealize.ShloMosaic Idealize.ShloMosaic.TcCoe Idealize.ShloMosaic.Tactic Idealize.ShloMosaic.ValueIdx
open Cert.KernelIdeal Cert.KernelIdeal.Gen Idealize.SL.Sem Cert.Trip Cert.Pieces

variable {F : FTy → Type} [FloatOps F]
variable (m : (ℓ : Loc nD τ sig) → Buf (Elt F) ℓ)

/-- The query block at point `t`. -/
abbrev qblk (c : Dev nD) (t : Fin cfg0.N) : Vec F S64x128 .f32 := iblk m c 0 t
/-- The memory tile at point `t`. -/
abbrev tile (c : Dev nD) (t : Fin cfg0.N) : Vec F S8192x128 .f32 := iblk m c 1 t

/-- The printed index maps over the grid: the query's and the output's block stay at the origin, the memory's block
    index is the point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The query block is the query. -/
theorem qblk_apply (c : Dev nD) (t : Fin cfg0.N) (b : Fin 64) (e : Fin 128) :
    qblk m c t (ix2 b e) = m ((c : Thread nD τ).loc main_arg0) (ix2 b e) := by
  show V m c main_arg0 (((cfg0.win 0).blk t).view.emb (ix2 b e)) = _
  rw [V_main_arg0]
  obtain ⟨e0, e1, -⟩ := idx_facts t
  refine congrArg _ (funext fun a => Fin.ext ?_)
  match a with
  | ⟨0, _⟩ => show win0_0.index t (0 : Fin 2) * 64 + 1 * b.val = b.val; omega
  | ⟨1, _⟩ => show win0_0.index t (1 : Fin 2) * 128 + 1 * e.val = e.val; omega

/-- Row `ρ` of tile `t` is memory row `8192 t + ρ`. -/
theorem tile_apply (c : Dev nD) (t : Fin cfg0.N) (ρ : Fin 8192) (e : Fin 128) (hρ : 8192 * t.val + ρ.val < 65536) :
    tile m c t (ix2 ρ e) = m ((c : Thread nD τ).loc main_arg1) (ix2 (⟨8192 * t.val + ρ.val, hρ⟩ : Fin 65536) e) := by
  show V m c main_arg1 (((cfg0.win 1).blk t).view.emb (ix2 ρ e)) = _
  rw [V_main_arg1]
  obtain ⟨-, -, e2, e3, -⟩ := idx_facts t
  refine congrArg _ (funext fun a => Fin.ext ?_)
  match a with
  | ⟨0, _⟩ => show win0_1.index t (0 : Fin 2) * 8192 + 1 * ρ.val = 8192 * t.val + ρ.val; omega
  | ⟨1, _⟩ => show win0_1.index t (1 : Fin 2) * 128 + 1 * e.val = e.val; omega

/-- What the scratch buffers hold after point `n`: running maximum, running sum, accumulator. -/
def carriedAt (c : Dev nD) (n : ℕ) (hn : n < cfg0.N) : Carried F :=
  ((outsAt0 m c n hn).2.2.1, (outsAt0 m c n hn).2.2.2, (outsAt0 m c n hn).2.1)

/-- The loop's results at point `t` from the starting values `init`. -/
abbrev loopAt (c : Dev nD) (t : Fin cfg0.N) (init : Carried F) : Carried F :=
  loopRes c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (qblk m c t) (tile m c t) init

/-- At the first point: the loop from the reset values. -/
theorem carried_A (c : Dev nD) (t : Fin cfg0.N) (h0 : t.val % 8 = 0) (h1 : ¬t.val % 8 = 7) :
    carriedAt m c t.val t.isLt = loopAt m c t resetVals := by
  unfold carriedAt
  rw [outsAt0_A m c t h0 h1]
  dsimp only
  rw [sA0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (qblk m c t) (tile m c t),
    sA1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (qblk m c t) (tile m c t),
    sA2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (qblk m c t) (tile m c t),
    Cert.Payloads.pay11_eq, Cert.Payloads.pay12_eq, Cert.Payloads.pay13_eq]

/-- At a middle point: the loop from what the point before left. -/
theorem carried_B (c : Dev nD) (t : Fin cfg0.N) (h0 : ¬t.val % 8 = 0) (h1 : ¬t.val % 8 = 7) :
    carriedAt m c t.val t.isLt
      = loopAt m c t (carriedAt m c (t.val - 1) (Nat.lt_of_le_of_lt (Nat.sub_le _ _) t.isLt)) := by
  unfold carriedAt
  rw [outsAt0_B m c t h0 h1]
  dsimp only
  rw [sB0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (qblk m c t) (tile m c t) _ _ _,
    sB1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (qblk m c t) (tile m c t) _ _ _,
    sB2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (qblk m c t) (tile m c t) _ _ _,
    Cert.Payloads.pay11_eq, Cert.Payloads.pay12_eq, Cert.Payloads.pay13_eq]

/-- At the last point: the same. -/
theorem carried_C (c : Dev nD) (t : Fin cfg0.N) (h0 : ¬t.val % 8 = 0) (h1 : t.val % 8 = 7) :
    carriedAt m c t.val t.isLt
      = loopAt m c t (carriedAt m c (t.val - 1) (Nat.lt_of_le_of_lt (Nat.sub_le _ _) t.isLt)) := by
  unfold carriedAt
  rw [outsAt0_C m c t h0 h1]
  dsimp only
  rw [sC0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (qblk m c t) (tile m c t) _ _ _,
    sC1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (qblk m c t) (tile m c t) _ _ _,
    sC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (qblk m c t) (tile m c t) _ _ _,
    Cert.Payloads.pay11_eq, Cert.Payloads.pay12_eq, Cert.Payloads.pay13_eq]

/-- … and the output block is accumulator over sum of what the last point leaves in the scratch buffers. -/
theorem out_C (c : Dev nD) (t : Fin cfg0.N) (h0 : ¬t.val % 8 = 0) (h1 : t.val % 8 = 7) :
    (outsAt0 m c t.val t.isLt).1 = k0_pay14 (carriedAt m c t.val t.isLt).2.1 (carriedAt m c t.val t.isLt).2.2 := by
  rw [carried_C m c t h0 h1]
  rw [outsAt0_C m c t h0 h1]
  dsimp only
  exact oC2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (qblk m c t) (tile m c t) _ _ _

end Cert.Points

end
-- ==== Proof.KernelValue.lean ====
/-
  The kernel's result array is the specification.

  By induction over the grid points, after point `t` every row of the scratch buffers is in the streamed-average state
  over the first `8192 (t + 1)` memory rows: the first point starts from the reset values, each further point from
  what the one before left, and a point's inner loop consumes its tile's 8192 rows. After the last point all 65536 rows
  are in, and the stored block, accumulator over sum, is the softmax-weighted average `Spec.G`. That point is the only
  one written back, and its block is the whole result array.
-/
import proofs.«123920_g51857435131909_cont_8to1_c_104_12_alg».proof.Proof.Points

set_option maxRecDepth 16384

noncomputable section

namespace Cert.KernelValue

open Idealize.ShloMosaic Idealize.ShloMosaic.TcCoe Idealize.ShloMosaic.Tactic Idealize.ShloMosaic.ValueIdx
open Cert.KernelIdeal Cert.KernelIdeal.Gen Idealize.SL.Sem Cert.Trip Cert.Pieces Cert.Points
open Idealize.ShloMosaic.Pipeline (Dat)

variable (m : (ℓ : Loc nD τ sig) → Buf (Elt Ideal) ℓ) (ρ : Dev nD → PrngReg)

/-- The query array as launched. -/
abbrev A0 (c : Dev nD) : S64x128.Idx → EReal := m ((c : Thread nD τ).loc main_arg0)
/-- The memory array as launched. -/
abbrev A1 (c : Dev nD) : S65536x128.Idx → EReal := m ((c : Thread nD τ).loc main_arg1)

/-- The reset values are the state before any memory row. -/
theorem reset_inv (x0 : (⟨2, ![64, 128]⟩ : Shape).Idx → EReal) (x1 : (⟨2, ![65536, 128]⟩ : Shape).Idx → EReal) :
    StateInv x0 x1 0 (resetVals (F := Ideal)) := by
  intro b
  obtain ⟨M₀, hM⟩ := Cert.Payloads.pay2_real
  unfold resetVals
  dsimp only
  rw [hM, Cert.Payloads.pay3_apply,
    show (fun d : Fin 128 => k0_pay1 (F := Ideal) (ix2 b d)) = fun _ => 0 from funext fun d => Cert.Payloads.pay1_apply _]
  exact Cert.Softmax.RowInv.init _ _ M₀

/-- Sixteen trips of 512 rows. -/
theorem trips_eq : k0_t1_loop.trips = 16 := by decide

/-- Point `t`'s loop takes the state after `8192 t` rows to the state after `8192 (t + 1)` rows. -/
theorem loopAt_inv (c : Dev nD) (h0 : Cert.Spec.AllReal (A0 m c)) (h1 : Cert.Spec.AllReal (A1 m c)) (t : Fin cfg0.N)
    (init : Carried Ideal) (hinit : StateInv (A0 m c) (A1 m c) (8192 * t.val) init) :
    StateInv (A0 m c) (A1 m c) (8192 * (t.val + 1)) (loopAt m c t init) := by
  have hN : t.val < 8 := lt_of_lt_of_eq t.isLt N_0
  have h := st_inv (x0 := A0 m c) (x1 := A1 m c) Variants.none c none (grid0.coords t) (ms0_0 t) (hs0_0 t) (ms0_1 t) (hs0_1 t)
    (ms0_2 t) (hs0_2 t) scM0_0 (Memref.isWhole_whole _) scM0_1 (Memref.isWhole_whole _) scM0_2 (Memref.isWhole_whole _)
    (qblk m c t) (tile m c t) init (8192 * t.val)
    (fun b e => (qblk_apply m c t b e).trans (Cert.Spec.q_eq h0 b e))
    (fun ρ' e => (tile_apply m c t ρ' e (by have := ρ'.isLt; omega)).trans (Cert.Spec.mem_eq' h1 _ _ e))
    hinit k0_t1_loop.trips le_rfl
  have e : 8192 * t.val + 512 * k0_t1_loop.trips = 8192 * (t.val + 1) := by rw [trips_eq]; ring
  rw [← e]
  exact h

/-- After point `n` the scratch buffers are in the state over the first `8192 (n + 1)` memory rows. -/
theorem pt_inv (c : Dev nD) (h0 : Cert.Spec.AllReal (A0 m c)) (h1 : Cert.Spec.AllReal (A1 m c)) :
    ∀ (n : ℕ) (hn : n < cfg0.N), StateInv (A0 m c) (A1 m c) (8192 * (n + 1)) (carriedAt m c n hn)
  | 0, hn => by
    have e : carriedAt m c 0 hn = loopAt m c ⟨0, hn⟩ resetVals := carried_A m c ⟨0, hn⟩ rfl (by show ¬(0 : ℕ) % 8 = 7; decide)
    rw [e]
    exact loopAt_inv m c h0 h1 ⟨0, hn⟩ resetVals (reset_inv _ _)
  | n + 1, hn => by
    have hN : n + 1 < 8 := lt_of_lt_of_eq hn N_0
    have ih := pt_inv c h0 h1 n (Nat.lt_of_succ_lt hn)
    have hne : ¬(n + 1) % 8 = 0 := by omega
    have e : carriedAt m c (n + 1) hn = loopAt m c ⟨n + 1, hn⟩ (carriedAt m c n (Nat.lt_of_succ_lt hn)) := by
      by_cases h7 : (n + 1) % 8 = 7
      · exact carried_C m c ⟨n + 1, hn⟩ hne h7
      · exact carried_B m c ⟨n + 1, hn⟩ hne h7
    rw [e]
    exact loopAt_inv m c h0 h1 ⟨n + 1, hn⟩ _ ih

/-- The block the last point stores is the specification. -/
theorem out_final (c : Dev nD) (h0 : Cert.Spec.AllReal (A0 m c)) (h1 : Cert.Spec.AllReal (A1 m c)) (t : Fin cfg0.N)
    (ht : t.val = 7) : (outsAt0 m c t.val t.isLt).1 = Cert.Spec.G (A0 m c) (A1 m c) := by
  rw [out_C m c t (by omega) (by omega)]
  refine Cert.Spec.eq_G_of_ix2 _ _ _ fun b d => ?_
  rw [Cert.Payloads.pay14_apply]
  have h := (pt_inv m c h0 h1 t.val t.isLt b).final (by omega) d
  rw [h]
  unfold Cert.Spec.Gat
  rw [ht]

/-- What a written-back point writes is its block of the specification. -/
theorem flushed_eq (c : Dev nD) (h0 : Cert.Spec.AllReal (A0 m c)) (h1 : Cert.Spec.AllReal (A1 m c)) (t : Fin cfg0.N)
    (hf : (cfg0.win 2).flush t = true) :
    (dats m 0 c).flushed 2 t = ((cfg0.win 2).blk t).view.read (Elt Ideal) (Cert.Spec.G (A0 m c) (A1 m c)) := by
  have hN : t.val < 8 := lt_of_lt_of_eq t.isLt N_0
  have h7 : t.val = 7 := by have := (flush0_2 t).mp hf; omega
  show (cfg0.win 2).cut (grid0.coords t) ((dats m 0 c).after 2 t) = _
  rw [after0_2, out_final m c h0 h1 t h7]
  obtain ⟨-, -, -, -, e4, e5⟩ := idx_facts t
  funext j
  show Cert.Spec.G (A0 m c) (A1 m c) j = Cert.Spec.G (A0 m c) (A1 m c) (((cfg0.win 2).blk t).view.emb j)
  refine congrArg _ (funext fun a => Fin.ext ?_)
  match a with
  | ⟨0, _⟩ => show (j 0).val = win0_2.index t (0 : Fin 2) * 64 + 1 * (j 0).val; omega
  | ⟨1, _⟩ => show (j 1).val = win0_2.index t (1 : Fin 2) * 128 + 1 * (j 1).val; omega

/-- An index of the result array is in point `t`'s block iff each coordinate is in the block's range on its axis. -/
theorem mem_blk (t : Fin cfg0.N) (i : S64x128.Idx) :
    i ∈ ((cfg0.win 2).blk t).view.set ↔ ∀ a : Fin 2, win0_2.index t a * S64x128.size a ≤ (i a).val ∧ (i a).val < win0_2.index t a * S64x128.size a + S64x128.size a := by
  show i ∈ ((View.whole main_v0).slice (win0_2.rect t)).set ↔ _
  rw [View.set_slice_whole, Rect.mem_set_unit]
  exact Iff.rfl

/-- The last point's block covers the result array. -/
theorem cover (i : S64x128.Idx) : ∃ t : Fin cfg0.N, (cfg0.win 2).flush t = true ∧ i ∈ ((cfg0.win 2).blk t).view.set := by
  have hlast : 7 < cfg0.N := by rw [show cfg0.N = 8 from N_0]; decide
  refine ⟨⟨7, hlast⟩, (flush0_2 _).mpr rfl, ?_⟩
  rw [mem_blk]
  obtain ⟨-, -, -, -, e4, e5⟩ := idx_facts ⟨7, hlast⟩
  have hi0 : (i 0).val < 64 := (i 0).isLt
  have hi1 : (i 1).val < 128 := (i 1).isLt
  intro a
  match a with
  | ⟨0, _⟩ => show win0_2.index ⟨7, hlast⟩ (0 : Fin 2) * 64 ≤ (i 0).val ∧ (i 0).val < win0_2.index ⟨7, hlast⟩ (0 : Fin 2) * 64 + 64; omega
  | ⟨1, _⟩ => show win0_2.index ⟨7, hlast⟩ (1 : Fin 2) * 128 ≤ (i 1).val ∧ (i 1).val < win0_2.index ⟨7, hlast⟩ (1 : Fin 2) * 128 + 128; omega

/-- The result array after the run. -/
theorem final (c : Dev nD) (h0 : Cert.Spec.AllReal (A0 m c)) (h1 : Cert.Spec.AllReal (A1 m c)) :
    (dats m 0 c).arrAt 2 cfg0.N = Cert.Spec.G (A0 m c) (A1 m c) :=
  (dats m 0 c).arrAt_eq_of_cover 2 (Cert.Spec.G (A0 m c) (A1 m c)) (fun t hf => flushed_eq m c h0 h1 t hf) cover

/-- The kernel's run: where both arrays hold real numbers on every core, the result array ends at the specification and
    the arguments are unchanged. -/
theorem run (hreal : ∀ c : Dev nD, Cert.Spec.AllReal (A0 m c) ∧ Cert.Spec.AllReal (A1 m c)) :
    θ_run defs (onTc (τ := τ) (main (F := Ideal))) ⟨m, fun _ => 0, ρ⟩ fun r => ∀ c : Dev nD,
      r.2.mem ((c : Thread nD τ).loc main_v0) = Cert.Spec.G (A0 m c) (A1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (Cert.KernelIdeal.Value.run_blocks m ρ)

end Cert.KernelValue

end
-- ==== Proof.RefValue.lean ====
/-
  The reference program's result is the specification: scores by a product with the transposed memory, divided by
  one; the row maximum; exponentials of the differences; each divided by the row's sum; the product with the memory.
-/
import proofs.«123920_g51857435131909_cont_8to1_c_104_12_alg».proof.Proof.Gen.ReferenceIdeal.Read
import proofs.«123920_g51857435131909_cont_8to1_c_104_12_alg».proof.Proof.Spec
import proofs.«123920_g51857435131909_cont_8to1_c_104_12_alg».proof.Proof.LibLayout

noncomputable section

namespace Cert.RefValue

open Idealize.ShloMosaic Idealize.ShloMosaic.ValueIdx Cert.ReferenceIdeal Cert.ReferenceIdeal.Gen

/-! ## The three constants the reference spells -/

/-- The pattern of `1.0` denotes the real number one. -/
theorem ofBits_one : Ideal.ofBits .f32 0x3F800000#32 = ((1 : ℝ) : EReal) := by
  simp [Ideal.ofBits, Ideal.ieee, -EReal.coe_mul]; norm_num

/-- The pattern of `-inf` denotes the bottom of the extended reals. -/
theorem ofBits_neg_inf : Ideal.ofBits .f32 0xFF800000#32 = (⊥ : EReal) := by
  simp [Ideal.ofBits, Ideal.ieee]

section Stages

variable (x0 : (⟨Cert.ReferenceIdeal.S64x128, .f32⟩ : BufTy).Contents (Elt Ideal))
  (x1 : (⟨Cert.ReferenceIdeal.S65536x128, .f32⟩ : BufTy).Contents (Elt Ideal))

/-! ## Each stage read at coordinates -/

/-- The divided scores at `(b, j)`: the product's entry over one. -/
theorem v3_at (b : Fin 64) (j : Fin 65536) :
    Read.val_main_v3 (F := Ideal) x0 x1 (ix2 b j)
      = Ideal.div (Read.val_main_v1 (F := Ideal) x0 x1 (ix2 b j)) ((1 : ℝ) : EReal) := by
  rw [Read.val_main_v3_apply, Ideal.hostDivf_def, Read.val_main_v2_apply, Read.val_main_cst_apply, Ideal.ofBits_def,
    ofBits_one]

/-- Row `b` of the score array with the coordinate `k` put back on the reduced axis is `(b, k)`. -/
theorem lift_row (h : S64x65536.Reduces [1] S64) (b : Fin 64) (k : Fin (S64x65536.size 1)) :
    h.lift (ix1 b) k = ix2 b (⟨k.val, k.isLt⟩ : Fin 65536) := by
  funext c
  apply Fin.ext
  match c with
  | ⟨0, _⟩ => rfl
  | ⟨1, _⟩ => rfl

/-- The reduce from `-inf` at row `b`: the maximum, folded from `⊥`, of the row's divided scores. -/
theorem v4_at (b : Fin 64) :
    Read.val_main_v4 (F := Ideal) x0 x1 (ix1 b)
      = (Finset.univ : Finset (Fin 65536)).fold max ⊥ fun k => Read.val_main_v3 (F := Ideal) x0 x1 (ix2 b k) := by
  have h : S64x65536.Reduces [1] S64 := by decide
  unfold Read.val_main_v4
  generalize Read.val_main_v3 (F := Ideal) x0 x1 = y
  refine (Host.reduce_eq_fold_single (FloatOps.maximumf (F := Ideal) (φ := .f32)) y _ reducesTo_S64x65536_S64_d1 h h_S_ (ix1 b)).trans ?_
  rw [Read.val_main_cst_0_apply, Ideal.ofBits_def, ofBits_neg_inf]
  have hf : (y ∘ h.lift (ix1 b)) = fun k : Fin 65536 => y (ix2 b k) := funext fun k => congrArg y (lift_row h b k)
  exact congrArg (fun f => Finset.fold max (⊥ : EReal) f (Finset.univ : Finset (Fin 65536))) hf

/-- The scores at `(b, j)`: row `b` of the query against row `j` of the memory, a real number. -/
theorem v1_at (h0 : Cert.Spec.AllReal x0) (h1 : Cert.Spec.AllReal x1) (b : Fin 64) (j : Fin 65536) :
    Read.val_main_v1 (F := Ideal) x0 x1 (ix2 b j) = ((Cert.Spec.score x0 x1 b j.val : ℝ) : EReal) := by
  rw [Read.val_main_v1_apply]
  refine Eq.trans (Finset.sum_congr rfl fun e _ => ?_) (Cert.Spec.score_eq h0 h1 b j.val j.isLt)
  rw [Read.val_main_v0_apply]
  -- the left factor is read at (b, e); the transposed memory at (e, j) is the memory at (j, e)
  have el : Read.lidx_main_v1 (ix2 b j) e = ix2 b e :=
    funext fun a => Fin.ext (by match a with | ⟨0, _⟩ => rfl | ⟨1, _⟩ => rfl)
  have er : Read.idx_main_v0 (Read.ridx_main_v1 (ix2 b j) e) = ix2 (⟨j.val, j.isLt⟩ : Fin 65536) e :=
    funext fun a => Fin.ext (by match a with | ⟨0, _⟩ => rfl | ⟨1, _⟩ => rfl)
  rw [el, er]

/-- The maximum with the broadcast `-inf` at row `b`. -/
theorem v6_at (b : Fin 64) :
    Read.val_main_v6 (F := Ideal) x0 x1 (ix1 b) = max ⊥ (Read.val_main_v4 (F := Ideal) x0 x1 (ix1 b)) := by
  rw [Read.val_main_v6_apply, Ideal.maximumf_def, Read.val_main_v5_apply, Read.val_main_cst_1_apply, Ideal.ofBits_def,
    ofBits_neg_inf]

/-- The row maximum broadcast back over the columns. -/
theorem v8_at (b : Fin 64) (j : Fin 65536) :
    Read.val_main_v8 (F := Ideal) x0 x1 (ix2 b j) = Read.val_main_v6 (F := Ideal) x0 x1 (ix1 b) := by
  rw [Read.val_main_v8_apply, Read.val_main_v7_apply]
  exact congrArg _ (funext fun a => Fin.ext (by match a with | ⟨0, _⟩ => rfl))

/-- The exponential of the divided score less the row maximum. -/
theorem v10_at (b : Fin 64) (j : Fin 65536) :
    Read.val_main_v10 (F := Ideal) x0 x1 (ix2 b j)
      = Ideal.exp (Read.val_main_v3 (F := Ideal) x0 x1 (ix2 b j) - Read.val_main_v6 (F := Ideal) x0 x1 (ix1 b)) := by
  rw [Read.val_main_v10_apply, Ideal.hostUnary_exp_def, Read.val_main_v9_apply, Ideal.subf_def, v8_at]

/-- The row sum from zero of the exponentials. -/
theorem v11_at (b : Fin 64) :
    Read.val_main_v11 (F := Ideal) x0 x1 (ix1 b)
      = 0 + ∑ k : Fin 65536, Read.val_main_v10 (F := Ideal) x0 x1 (ix2 b k) := by
  rw [Read.val_main_v11_apply, Read.val_main_cst_2_apply, Ideal.ofBits_def, Ideal.ofBits_zero_f32]
  refine congrArg (0 + ·) (Finset.sum_congr rfl fun k _ => congrArg _ ?_)
  exact funext fun a => Fin.ext (by match a with | ⟨0, _⟩ => rfl | ⟨1, _⟩ => rfl)

/-- The row sum broadcast back over the columns. -/
theorem v13_at (b : Fin 64) (j : Fin 65536) :
    Read.val_main_v13 (F := Ideal) x0 x1 (ix2 b j) = Read.val_main_v11 (F := Ideal) x0 x1 (ix1 b) := by
  rw [Read.val_main_v13_apply, Read.val_main_v12_apply]
  exact congrArg _ (funext fun a => Fin.ext (by match a with | ⟨0, _⟩ => rfl))

/-- The normalised weight at `(b, j)`. -/
theorem v14_at (b : Fin 64) (j : Fin 65536) :
    Read.val_main_v14 (F := Ideal) x0 x1 (ix2 b j)
      = Ideal.div (Read.val_main_v10 (F := Ideal) x0 x1 (ix2 b j)) (Read.val_main_v11 (F := Ideal) x0 x1 (ix1 b)) := by
  rw [Read.val_main_v14_apply, Ideal.hostDivf_def, v13_at]

/-! ## The stages in terms of the scores alone -/

/-- The row maximum as a fold over the divided scores. -/
theorem v6_eq (b : Fin 64) :
    Read.val_main_v6 (F := Ideal) x0 x1 (ix1 b)
      = max ⊥ ((Finset.univ : Finset (Fin 65536)).fold max ⊥ fun k =>
          Ideal.div (Read.val_main_v1 (F := Ideal) x0 x1 (ix2 b k)) ((1 : ℝ) : EReal)) := by
  rw [v6_at, v4_at]
  have hf : (fun k : Fin 65536 => Read.val_main_v3 (F := Ideal) x0 x1 (ix2 b k))
      = fun k => Ideal.div (Read.val_main_v1 (F := Ideal) x0 x1 (ix2 b k)) ((1 : ℝ) : EReal) :=
    funext fun k => v3_at x0 x1 b k
  exact congrArg (fun f => max (⊥ : EReal) (Finset.fold max (⊥ : EReal) f (Finset.univ : Finset (Fin 65536)))) hf

theorem v10_eq (b : Fin 64) (j : Fin 65536) :
    Read.val_main_v10 (F := Ideal) x0 x1 (ix2 b j)
      = Ideal.exp (Ideal.div (Read.val_main_v1 (F := Ideal) x0 x1 (ix2 b j)) ((1 : ℝ) : EReal)
          - max ⊥ ((Finset.univ : Finset (Fin 65536)).fold max ⊥ fun k =>
              Ideal.div (Read.val_main_v1 (F := Ideal) x0 x1 (ix2 b k)) ((1 : ℝ) : EReal))) := by
  rw [v10_at, v3_at, v6_eq]

theorem v11_eq (b : Fin 64) :
    Read.val_main_v11 (F := Ideal) x0 x1 (ix1 b)
      = 0 + ∑ k : Fin 65536, Ideal.exp (Ideal.div (Read.val_main_v1 (F := Ideal) x0 x1 (ix2 b k)) ((1 : ℝ) : EReal)
          - max ⊥ ((Finset.univ : Finset (Fin 65536)).fold max ⊥ fun k' =>
              Ideal.div (Read.val_main_v1 (F := Ideal) x0 x1 (ix2 b k')) ((1 : ℝ) : EReal))) := by
  rw [v11_at]
  exact congrArg (0 + ·) (Finset.sum_congr rfl fun k _ => v10_eq x0 x1 b k)

theorem v14_eq (b : Fin 64) (j : Fin 65536) :
    Read.val_main_v14 (F := Ideal) x0 x1 (ix2 b j)
      = Ideal.div (Ideal.exp (Ideal.div (Read.val_main_v1 (F := Ideal) x0 x1 (ix2 b j)) ((1 : ℝ) : EReal)
            - max ⊥ ((Finset.univ : Finset (Fin 65536)).fold max ⊥ fun k =>
                Ideal.div (Read.val_main_v1 (F := Ideal) x0 x1 (ix2 b k)) ((1 : ℝ) : EReal))))
          (0 + ∑ k : Fin 65536, Ideal.exp (Ideal.div (Read.val_main_v1 (F := Ideal) x0 x1 (ix2 b k)) ((1 : ℝ) : EReal)
            - max ⊥ ((Finset.univ : Finset (Fin 65536)).fold max ⊥ fun k' =>
                Ideal.div (Read.val_main_v1 (F := Ideal) x0 x1 (ix2 b k')) ((1 : ℝ) : EReal)))) := by
  rw [v14_at, v10_eq, v11_eq]

end Stages

/-! ## The last stage -/

/-- On arrays of real numbers the reference's last stage is `Spec.G`. -/
theorem ref_eq_G (x0 : (⟨Cert.ReferenceIdeal.S64x128, .f32⟩ : BufTy).Contents (Elt Ideal))
    (x1 : (⟨Cert.ReferenceIdeal.S65536x128, .f32⟩ : BufTy).Contents (Elt Ideal))
    (h0 : Cert.Spec.AllReal x0) (h1 : Cert.Spec.AllReal x1) :
    Cert.ReferenceIdeal.Read.val_main_v15 (F := Ideal) x0 x1 = Cert.Spec.G x0 x1 := by
  refine Cert.Spec.eq_G_of_ix2 x0 x1 _ fun b d => ?_
  rw [Read.val_main_v15_apply]
  -- the two-pass evaluation of row `b` against column `d` of the memory
  have hs := Cert.Softmax.two_pass (Cert.Spec.score x0 x1 b) (fun j => Cert.Spec.memR x1 j d) 65536 (by norm_num)
    (fun j : Fin 65536 => Read.val_main_v1 (F := Ideal) x0 x1 (ix2 b j)) (fun j : Fin 65536 => x1 (ix2 j d))
    (fun j => v1_at x0 x1 h0 h1 b j) (fun j => Cert.Spec.mem_eq h1 j d)
  refine Eq.trans (Finset.sum_congr rfl fun k _ => ?_) hs
  have el : Read.lidx_main_v15 (ix2 b d) k = ix2 b k :=
    funext fun a => Fin.ext (by match a with | ⟨0, _⟩ => rfl | ⟨1, _⟩ => rfl)
  have er : Read.ridx_main_v15 (ix2 b d) k = ix2 k d :=
    funext fun a => Fin.ext (by match a with | ⟨0, _⟩ => rfl | ⟨1, _⟩ => rfl)
  rw [el, er, v14_eq]

end Cert.RefValue

end
-- ==== Proof.Finite.lean ====
/-
  From the precondition to real entries: the precondition's function is "every |entry| of both arrays is below +∞";
  where it is all ones, no entry of either array is `⊤` or `⊥`, so each is a real number.
-/
import proofs.«123920_g51857435131909_cont_8to1_c_104_12_alg».proof.Proof.Gen.Pre_finite_inputs
import proofs.«123920_g51857435131909_cont_8to1_c_104_12_alg».proof.Proof.Spec
import Idealize.ShloMosaic.Lib.ReduceAll

noncomputable section

namespace Cert.Finite

open Idealize.ShloMosaic Idealize.ShloMosaic.ValueIdx

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` is below `⊤` is a real number:
    at `⊥` the absolute value is `max ⊥ ⊤ = ⊤`, at `⊤` it is `max ⊤ ⊥ = ⊤`. -/
theorem real_of_abs_lt_top (a : EReal) (h : max a (-a) < ⊤) : a = (((a.toReal : ℝ)) : EReal) := by
  induction a using EReal.rec with
  | bot => simp at h
  | coe r => rfl
  | top => simp at h

/-- The comparison word `|a| < +∞` being 1 makes `a` a real number. -/
theorem real_of_cmp (a : Ideal .f32)
    (h : FloatOps.cmpf .olt (FloatOps.hostAbsf a) (FloatOps.ofBits (F := Ideal) .f32 0x7F800000#32) = 1#1) :
    a = (((EReal.toReal a : ℝ)) : EReal) := by
  refine real_of_abs_lt_top a ?_
  have h' : BitVec.ofBool (decide (max a (-a) < Ideal.ofBits .f32 0x7F800000#32)) = 1#1 := h
  rw [ofBits_inf] at h'
  by_contra hc
  rw [decide_eq_false hc] at h'
  exact absurd h' (by decide)

/-- The result shape of a reduction over every axis has one index. -/
local instance : Subsingleton Cert.Pre_finite_inputs.S_.Idx := ⟨fun a b => funext fun d => d.elim0⟩

/-- Where the precondition holds, every entry of the query and of the memory is a real number. -/
theorem allReal_of_pre (x0 : FVec Ideal Cert.Pre_finite_inputs.S64x128 .f32) (x1 : FVec Ideal Cert.Pre_finite_inputs.S65536x128 .f32)
    (h : Cert.Pre_finite_inputs.fn (F := Ideal) x0 x1 = fun _ => 1#1) : Cert.Spec.AllReal x0 ∧ Cert.Spec.AllReal x1 := by
  have h' := congrFun h ValueIdx.ix0
  unfold Cert.Pre_finite_inputs.fn at h'
  dsimp only at h'
  obtain ⟨ha, hb⟩ := IntOp.andi_eq_one.1 h'
  refine ⟨fun i => ?_, fun i => ?_⟩
  · exact real_of_cmp (x0 i) (Host.reduce_andi_all _ _ _ _ _ ha i)
  · exact real_of_cmp (x1 i) (Host.reduce_andi_all _ _ _ _ _ hb i)

end Cert.Finite

end
-- ==== Proof.lean ====
/-
  The certificate of a streamed softmax read of a memory bank.

  The kernel computes softmax(query · memoryᵀ) · memory in one pass over the memory: the grid walks eight tiles of 8192
  memory rows, an inner loop walks each tile in sixteen chunks of 512 rows, and three scratch buffers carry, per query
  row, a running maximum M, the running sum ∑ exp (s_j − M) and the accumulator ∑ exp (s_j − M) · memory_j over the rows
  seen so far; the last point stores accumulator / sum. The reference forms all scores, subtracts each row's maximum,
  exponentiates, normalises by the row's sum and multiplies with the memory.

  Over the extended reals, with every input entry a real number (the precondition), both are
  (∑_j exp (s_j) · memory_j) / (∑_j exp (s_j)): a common shift of the scores cancels in the quotient, so neither the
  kernel's finite starting maximum nor the order in which it raises the maximum matters; the changes of float format in
  the kernel are the identity, and its chunked products are plain sums. Softmax.lean holds this arithmetic for one row,
  Spec.lean the common result, Payloads/Trip/Pieces/Points/KernelValue read the kernel's run down to it, RefValue reads
  the reference's run, Finite turns the precondition into "every entry is a real number".
-/
import proofs.«123920_g51857435131909_cont_8to1_c_104_12_alg».proof.Defs
import proofs.«123920_g51857435131909_cont_8to1_c_104_12_alg».proof.Proof.Gen.Kernel
import proofs.«123920_g51857435131909_cont_8to1_c_104_12_alg».proof.Proof.Gen.Kernel.Skeleton
import proofs.«123920_g51857435131909_cont_8to1_c_104_12_alg».proof.Proof.Gen.Kernel.Loops
import proofs.«123920_g51857435131909_cont_8to1_c_104_12_alg».proof.Proof.Gen.Kernel.Launch
import proofs.«123920_g51857435131909_cont_8to1_c_104_12_alg».proof.Proof.Gen.Kernel.Points
import proofs.«123920_g51857435131909_cont_8to1_c_104_12_alg».proof.Proof.Gen.Kernel.Frame
import proofs.«123920_g51857435131909_cont_8to1_c_104_12_alg».proof.Proof.Gen.KernelIdeal
import proofs.«123920_g51857435131909_cont_8to1_c_104_12_alg».proof.Proof.Gen.KernelIdeal.Skeleton
import proofs.«123920_g51857435131909_cont_8to1_c_104_12_alg».proof.Proof.Gen.KernelIdeal.Loops
import proofs.«123920_g51857435131909_cont_8to1_c_104_12_alg».proof.Proof.Gen.KernelIdeal.Launch
import proofs.«123920_g51857435131909_cont_8to1_c_104_12_alg».proof.Proof.Gen.KernelIdeal.Points
import proofs.«123920_g51857435131909_cont_8to1_c_104_12_alg».proof.Proof.Gen.KernelIdeal.Frame
import proofs.«123920_g51857435131909_cont_8to1_c_104_12_alg».proof.Proof.Gen.ReferenceIdeal
import proofs.«123920_g51857435131909_cont_8to1_c_104_12_alg».proof.Proof.Gen.Pre_finite_inputs
import proofs.«123920_g51857435131909_cont_8to1_c_104_12_alg».proof.Proof.Gen.KernelIdeal.Value
import proofs.«123920_g51857435131909_cont_8to1_c_104_12_alg».proof.Proof.Gen.ReferenceIdeal.Run
import proofs.«123920_g51857435131909_cont_8to1_c_104_12_alg».proof.Proof.Gen.ReferenceIdeal.Read
import proofs.«123920_g51857435131909_cont_8to1_c_104_12_alg».proof.Proof.KernelValue
import proofs.«123920_g51857435131909_cont_8to1_c_104_12_alg».proof.Proof.RefValue
import proofs.«123920_g51857435131909_cont_8to1_c_104_12_alg».proof.Proof.Finite
import Idealize.ShloMosaic.Adequacy
import Idealize.ShloMosaic.Init

noncomputable section

namespace Cert.Proof

open Idealize.ShloMosaic Idealize.SL.Sem Cert.Kernel

/-- The three programs run, terminate and keep their arguments. -/
theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the softmax-weighted average `Spec.G` of the argument arrays. -/
theorem algebraic : Cert.algebraic_KernelIdeal_ReferenceIdeal := by
  intro m ρ m' ρ' hpre hagree
  have hreal : ∀ c : Dev Cert.KernelIdeal.nD,
      Cert.Spec.AllReal (Cert.KernelValue.A0 m c) ∧ Cert.Spec.AllReal (Cert.KernelValue.A1 m c) :=
    fun c => Cert.Finite.allReal_of_pre _ _ (hpre c)
  refine ⟨fun c => Cert.Spec.G (Cert.KernelValue.A0 m c) (Cert.KernelValue.A1 m c), Cert.KernelValue.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  exact Cert.RefValue.ref_eq_G _ _ (hreal c).1 (hreal c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
